-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S16x128 : Shape := ⟨2, ![16, 128]⟩
abbrev S16 : Shape := ⟨1, ![16]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_arg5 : FVec F S16 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S16384x128 .f32) (main_arg1 : FVec F S16384x16384 .f32) (main_arg2 : FVec F S16x128 .f32) (main_arg3 : FVec F S16 .f32) (main_arg4 : FVec F S16 .f32) (main_arg5 : FVec F S16 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S16384x128 : Shape := ⟨2, ![16384, 128]⟩
abbrev S16384x16384 : Shape := ⟨2, ![16384, 16384]⟩
abbrev S16x128 : Shape := ⟨2, ![16, 128]⟩
abbrev S16 : Shape := ⟨1, ![16]⟩
abbrev S1x16 : Shape := ⟨2, ![1, 16]⟩
abbrev S16x1 : Shape := ⟨2, ![16, 1]⟩
abbrev S1x16384 : Shape := ⟨2, ![1, 16384]⟩
abbrev S256x16384 : Shape := ⟨2, ![256, 16384]⟩
abbrev S16384x16 : Shape := ⟨2, ![16384, 16]⟩
abbrev S16x16384 : Shape := ⟨2, ![16, 16384]⟩
abbrev S128x16 : Shape := ⟨2, ![128, 16]⟩
abbrev S256x16 : Shape := ⟨2, ![256, 16]⟩
abbrev S16x256 : Shape := ⟨2, ![16, 256]⟩
abbrev S16384 : Shape := ⟨1, ![16384]⟩
abbrev S16384x1 : Shape := ⟨2, ![16384, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16x128, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1x16, .f32⟩
  | .hbm, ⟨7, _⟩ => ⟨S16x1, .f32⟩
  | .hbm, ⟨8, _⟩ => ⟨S16x1, .f32⟩
  | .hbm, ⟨9, _⟩ => ⟨S1x16384, .f32⟩
  | .hbm, ⟨10, _⟩ => ⟨S16384x1, .f32⟩
  | .local _ .vmem, ⟨0, _⟩ => ⟨S16384x128, .f32⟩
  | .local _ .vmem, ⟨1, _⟩ => ⟨S256x16384, .f32⟩
  | .local _ .vmem, ⟨2, _⟩ => ⟨S256x16384, .f32⟩
  | .local _ .vmem, ⟨3, _⟩ => ⟨S16x128, .f32⟩
  | .local _ .vmem, ⟨4, _⟩ => ⟨S1x16, .f32⟩
  | .local _ .vmem, ⟨5, _⟩ => ⟨S16x1, .f32⟩
  | .local _ .vmem, ⟨6, _⟩ => ⟨S16x1, .f32⟩
  | .local _ .vmem, ⟨7, _⟩ => ⟨S1x16384, .f32⟩
  | .local _ .vmem, ⟨8, _⟩ => ⟨S16384x16, .f32⟩
  | .local _ .vmem, ⟨9, _⟩ => ⟨S16x16384, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7

abbrev nD : Nat := 1
abbrev τ : Topo := Topo.v7x

variable {F : FTy → Type} [FloatOps F]

abbrev grid0 : Pipeline.Grid := ⟨1, ![64], ![false]⟩

def k0_off1 (i : grid0.Coords) : Fin 2 → Nat :=
  let c0_4 : Index := 0#32
  let arg0 : BitVec 32 := BitVec.ofNat 32 (i 0).val
  let c256_i32 : BitVec 32 := 256#32
  let v7 : BitVec 32 := Scalar.muli arg0 c256_i32
  let v8 : Index := Scalar.indexCast v7
  ![0, v8.toNat]
def k0_cond2 (i : grid0.Coords) : BitVec 1 :=
  let arg0 : BitVec 32 := BitVec.ofNat 32 (i 0).val
  let c63_i32 : BitVec 32 := 63#32
  let v12 : BitVec 1 := Scalar.cmpi .eq arg0 c63_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S16_S1x16 : S16.ShapeCasts S1x16
  shapeCasts_S16_S16x1 : S16.ShapeCasts S16x1
  inb_S16384x128_S16384x128_0_0 : ∀ a, (![0, 0] : Fin 2 → Nat) a + S16384x128.size a ≤ S16384x128.size a
  h_S16384x128 : 0 < S16384x128.numel
  inb_S16x128_S16x128_0_0 : ∀ a, (![0, 0] : Fin 2 → Nat) a + S16x128.size a ≤ S16x128.size a
  h_S16x128 : 0 < S16x128.numel
  transposes_S16x128_p1_0_S128x16 : S16x128.Transposes [1, 0] S128x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S16384x16 : S1x16.Broadcasts S16384x16
  inb_S16384x16_S16384x16_0_0 : ∀ a, (![0, 0] : Fin 2 → Nat) a + S16384x16.size a ≤ S16384x16.size a
  h_S16384x16 : 0 < S16384x16.numel
  shapeCasts_S16384x16_S16384x16 : S16384x16.ShapeCasts S16384x16
  inb_S256x16384_S256x16384_0_0 : ∀ a, (![0, 0] : Fin 2 → Nat) a + S256x16384.size a ≤ S256x16384.size a
  h_S256x16384 : 0 < S256x16384.numel
  transposes_S256x16_p1_0_S16x256 : S256x16.Transposes [1, 0] S16x256
  h_S16x256 : 0 < S16x256.numel
  shapeCasts_S16x256_S16x256 : S16x256.ShapeCasts S16x256
  inb_S16x16384_S16x16384_0_0 : ∀ a, (![0, 0] : Fin 2 → Nat) a + S16x16384.size a ≤ S16x16384.size a
  h_S16x16384 : 0 < S16x16384.numel
  reduces_S16x16384_S16 : S16x16384.Reduces [1] S16
  broadcasts_S16x1_S16x16384 : S16x1.Broadcasts S16x16384
  inb_S16x1_S16x1_0_0 : ∀ a, (![0, 0] : Fin 2 → Nat) a + S16x1.size a ≤ S16x1.size a
  h_S16x1 : 0 < S16x1.numel
  shapeCasts_S16x1_S16x1 : S16x1.ShapeCasts S16x1
  reduces_S16x16384_S16384 : S16x16384.Reduces [0] S16384
  shapeCasts_S16384_S1x16384 : S16384.ShapeCasts S1x16384
  inb_S1x16384_S1x16384_0_0 : ∀ a, (![0, 0] : Fin 2 → Nat) a + S1x16384.size a ≤ S1x16384.size a
  h_S1x16384 : 0 < S1x16384.numel
  shapeCasts_S1x16384_S16384x1 : S1x16384.ShapeCasts S16384x1
  dot_S16384x128_S128x16_S16384x16_1_0_0_1_n_n_wf : DotDims.WF S16384x128 S128x16 S16384x16 [1] [0] [0] [1] [] []
  dot_S256x16384_S16384x16_S256x16_1_0_0_1_n_n_wf : DotDims.WF S256x16384 S16384x16 S256x16 [1] [0] [0] [1] [] []
  hrank0 : 0 < grid0.rank
  k0_off1_inb : ∀ i : grid0.Coords, ∀ a, (k0_off1 i) a + S16x256.size a ≤ S16x16384.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S16384x128.size a
  hwx0_0 : ∀ i : grid0.Coords, EltTy.bits .f32 = 32 ∨ (Rect.block (s := S16384x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16384.size a ≤ S16384x16384.size a
  hwx0_1 : ∀ i : grid0.Coords, EltTy.bits .f32 = 32 ∨ (Rect.block (s := S16384x16384) S256x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S16x128.size a
  hwx0_2 : ∀ i : grid0.Coords, EltTy.bits .f32 = 32 ∨ (Rect.block (s := S16x128) S16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1.size a ≤ S16x1.size a
  hwx0_4 : ∀ i : grid0.Coords, EltTy.bits .f32 = 32 ∨ (Rect.block (s := S16x1) S16x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16384.size a ≤ S1x16384.size a
  hwx0_6 : ∀ i : grid0.Coords, EltTy.bits .f32 = 32 ∨ (Rect.block (s := S1x16384) S1x16384.size (cc0_transform_6 i) (hinb0_6 i)).WholeWords (EltTy.packing .f32)

variable [Facts₀]

def dot_S16384x128_S128x16_S16384x16_1_0_0_1_n_n : DotDims S16384x128 S128x16 S16384x16 where
  lhsContracting := [1]
  rhsContracting := [0]
  lhsNonContracting := [0]
  rhsNonContracting := [1]
  lhsBatch := []
  rhsBatch := []
  wf := dot_S16384x128_S128x16_S16384x16_1_0_0_1_n_n_wf
def dot_S256x16384_S16384x16_S256x16_1_0_0_1_n_n : DotDims S256x16384 S16384x16 S256x16 where
  lhsContracting := [1]
  rhsContracting := [0]
  lhsNonContracting := [0]
  rhsNonContracting := [1]
  lhsBatch := []
  rhsBatch := []
  wf := dot_S256x16384_S16384x16_S256x16_1_0_0_1_n_n_wf

abbrev win0_0 : Pipeline.Window sig grid0 :=
  Pipeline.Window.ofSpec (Memref.whole main_arg0) S16384x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S16x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x16384.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S16x128 : Shape := ⟨2, ![16, 128]⟩
abbrev S16 : Shape := ⟨1, ![16]⟩
abbrev S128x16 : Shape := ⟨2, ![128, 16]⟩
abbrev S16384x16 : Shape := ⟨2, ![16384, 16]⟩
abbrev S1x16 : Shape := ⟨2, ![1, 16]⟩
abbrev S_ : Shape := ⟨0, ![]⟩
abbrev S16384 : Shape := ⟨1, ![16384]⟩
abbrev S16384x1 : Shape := ⟨2, ![16384, 1]⟩

abbrev nBuf : Space → Nat
  | .hbm => 62
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S16x128, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S128x16, .f32⟩
  | .hbm, ⟨7, _⟩ => ⟨S16384x16, .f32⟩
  | .hbm, ⟨8, _⟩ => ⟨S1x16, .f32⟩
  | .hbm, ⟨9, _⟩ => ⟨S16384x16, .f32⟩
  | .hbm, ⟨10, _⟩ => ⟨S16384x16, .f32⟩
  | .hbm, ⟨11, _⟩ => ⟨S16384x16, .f32⟩
  | .hbm, ⟨12, _⟩ => ⟨S_, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .i32⟩
  | .hbm, ⟨18, _⟩ => ⟨S_, .f32⟩
  | .hbm, ⟨19, _⟩ => ⟨S16, .f32⟩
  | .hbm, ⟨20, _⟩ => ⟨S1x16, .f32⟩
  | .hbm, ⟨21, _⟩ => ⟨S_, .f32⟩
  | .hbm, ⟨22, _⟩ => ⟨S1x16, .f32⟩
  | .hbm, ⟨23, _⟩ => ⟨S1x16, .f32⟩
  | .hbm, ⟨24, _⟩ => ⟨S16384x16, .f32⟩
  | .hbm, ⟨25, _⟩ => ⟨S16384x16, .f32⟩
  | .hbm, ⟨26, _⟩ => ⟨S16384x16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S_, .i1⟩
  | .hbm, ⟨36, _⟩ => ⟨S_, .f32⟩
  | .hbm, ⟨37, _⟩ => ⟨S_, .f32⟩
  | .hbm, ⟨38, _⟩ => ⟨S16, .f32⟩
  | .hbm, ⟨39, _⟩ => ⟨S16, .f32⟩
  | .hbm, ⟨40, _⟩ => ⟨S1x16, .f32⟩
  | .hbm, ⟨41, _⟩ => ⟨S16384x16, .f32⟩
  | .hbm, ⟨42, _⟩ => ⟨S16384x16, .f32⟩
  | .hbm, ⟨43, _⟩ => ⟨S_, .f32⟩
  | .hbm, ⟨44, _⟩ => ⟨S16, .f32⟩
  | .hbm, ⟨45, _⟩ => ⟨S16, .f32⟩
  | .hbm, ⟨46, _⟩ => ⟨S16, .f32⟩
  | .hbm, ⟨47, _⟩ => ⟨S1x16, .f32⟩
  | .hbm, ⟨48, _⟩ => ⟨S16384x16, .f32⟩
  | .hbm, ⟨49, _⟩ => ⟨S16384x16, .f32⟩
  | .hbm, ⟨50, _⟩ => ⟨S1x16, .f32⟩
  | .hbm, ⟨51, _⟩ => ⟨S16384x16, .f32⟩
  | .hbm, ⟨52, _⟩ => ⟨S16384x16, .f32⟩
  | .hbm, ⟨53, _⟩ => ⟨S1x16, .f32⟩
  | .hbm, ⟨54, _⟩ => ⟨S16384x16, .f32⟩
  | .hbm, ⟨55, _⟩ => ⟨S16384x16, .f32⟩
  | .hbm, ⟨56, _⟩ => ⟨S_, .f32⟩
  | .hbm, ⟨57, _⟩ => ⟨S16384x16, .f32⟩
  | .hbm, ⟨58, _⟩ => ⟨S16384x16, .f32⟩
  | .hbm, ⟨59, _⟩ => ⟨S_, .f32⟩
  | .hbm, ⟨60, _⟩ => ⟨S16384, .f32⟩
  | .hbm, ⟨61, _⟩ => ⟨S16384x1, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_cst_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_cst_1 : Ref sig .tc := ⟨.hbm, 28, rfl⟩
abbrev main_call0_v8 : Ref sig .tc := ⟨.hbm, 29, rfl⟩
abbrev main_call0_cst_2 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_cst_3 : Ref sig .tc := ⟨.hbm, 34, rfl⟩
abbrev main_call0_v12 : Ref sig .tc := ⟨.hbm, 35, rfl⟩
abbrev main_call0_cst_4 : Ref sig .tc := ⟨.hbm, 36, rfl⟩
abbrev main_call0_call0_v0 : Ref sig .tc := ⟨.hbm, 37, rfl⟩
abbrev main_call0_call0_v1 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_1 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_call1_cst : Ref sig .tc := ⟨.hbm, 56, rfl⟩
abbrev main_call1_v0 : Ref sig .tc := ⟨.hbm, 57, rfl⟩
abbrev main_v25 : Ref sig .tc := ⟨.hbm, 58, rfl⟩
abbrev main_cst_2 : Ref sig .tc := ⟨.hbm, 59, rfl⟩
abbrev main_v26 : Ref sig .tc := ⟨.hbm, 60, rfl⟩
abbrev main_v27 : Ref sig .tc := ⟨.hbm, 61, rfl⟩

abbrev nD : Nat := 1
abbrev τ : Topo := Topo.v7x

variable {F : FTy → Type} [FloatOps F]

class Facts₀ : Prop where
  transposes_S16x128_S128x16_1_0 : S16x128.Transposes [1, 0] S128x16
  bcast_S16_S1x16_1 : S16.BroadcastsInDim S1x16 (![1] : Fin 1 → Fin S1x16.rank)
  bcast_S1x16_S16384x16_0_1 : S1x16.BroadcastsInDim S16384x16 (![0, 1] : Fin 2 → Fin S16384x16.rank)
  reducesTo_S16384x16_S16_d0 : S16384x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S_S16384x16 : S_.BroadcastsInDim S16384x16 (![] : Fin 0 → Fin S16384x16.rank)
  reducesTo_S16384x16_S16384_d1 : S16384x16.ReducesTo [1] S16384
  bcast_S16384_S16384x1_0 : S16384.BroadcastsInDim S16384x1 (![0] : Fin 1 → Fin S16384x1.rank)
  dot_S16384x128_S128x16_S16384x16_1_0_0_1_n_n_wf : DotDims.WF S16384x128 S128x16 S16384x16 [1] [0] [0] [1] [] []
  dot_S16384x16384_S16384x16_S16384x16_1_0_0_1_n_n_wf : DotDims.WF S16384x16384 S16384x16 S16384x16 [1] [0] [0] [1] [] []

variable [Facts₀]

def dot_S16384x128_S128x16_S16384x16_1_0_0_1_n_n : DotDims S16384x128 S128x16 S16384x16 where
  lhsContracting := [1]
  rhsContracting := [0]
  lhsNonContracting := [0]
  rhsNonContracting := [1]
  lhsBatch := []
  rhsBatch := []
  wf := dot_S16384x128_S128x16_S16384x16_1_0_0_1_n_n_wf
def dot_S16384x16384_S16384x16_S16384x16_1_0_0_1_n_n : DotDims S16384x16384 S16384x16 S16384x16 where
  lhsContracting := [1]
  rhsContracting := [0]
  lhsNonContracting := [0]
  rhsNonContracting := [1]
  lhsBatch := []
  rhsBatch := []
  wf := dot_S16384x16384_S16384x16_S16384x16_1_0_0_1_n_n_wf

class Facts : Prop extends Facts₀ where

variable [Facts]
-- ==== Proof.BodyK.lean ====
import proofs.«145461_g64123861729553_cont_9to1_m_268_10_alg».proof.Proof.Gen.Kernel.Frame
import proofs.«145461_g64123861729553_cont_9to1_m_268_10_alg».proof.Proof.Gen.Kernel.Skeleton
import Idealize.ShloMosaic.Lib.Pipeline.Value
import Idealize.ShloMosaic.Lib.ValueIdx

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The conditions and the slice offset, in closed form over the grid -/

/-- The first conditional's word: set exactly at the grid's first point. -/
def condFirst (i : grid0.Coords) : BitVec 1 :=
  Scalar.cmpi .ne (Scalar.extui (Scalar.cmpi .eq (BitVec.ofNat 32 (i 0).val) 0#32)) 0#32

theorem condFirst_iff : ∀ t : Fin cfg0.N, condFirst (grid0.coords t) = 1#1 ↔ t.val = 0 :=
  (by decide +kernel : ∀ t : Fin grid0.N, condFirst (grid0.coords t) = 1#1 ↔ t.val = 0)

/-- The second conditional's word: set exactly at the grid's last point. -/
theorem condLast_iff : ∀ t : Fin cfg0.N, k0_cond2 (grid0.coords t) = 1#1 ↔ t.val = 63 :=
  (by decide +kernel : ∀ t : Fin grid0.N, k0_cond2 (grid0.coords t) = 1#1 ↔ t.val = 63)

/-- Point `t` stores the columns `[256·t, 256·t + 256)` of the transposed convolution. -/
theorem off_eq : ∀ t : Fin cfg0.N, k0_off1 (grid0.coords t) = ![0, 256 * t.val] :=
  (by decide +kernel : ∀ t : Fin grid0.N, k0_off1 (grid0.coords t) = ![0, 256 * t.val])

/-- The whole-buffer rectangle's offsets are zero. -/
theorem off0 : (![0, 0] : Fin 2 → ℕ) = fun _ => 0 := funext fun a => by fin_cases a <;> rfl

/-! ## The body's triples, one per case of the two conditionals -/

/-- A MIDDLE point (neither first nor last): the row block of the Laplacian times the projection held in the first
    scratch, transposed, is stored into its column slice of the second scratch; nothing else is touched. -/
theorem run_mid (c : Dev nD) (i : grid0.Coords) (arg1 : Memref sig .tc .vmem S16384x128 .f32) (harg1 : arg1.IsWhole) (arg2 : Memref sig .tc .vmem S256x16384 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S1x16384 .f32) (harg7 : arg7.IsWhole) (arg8 : Memref sig .tc .vmem S16384x16 .f32) (harg8 : arg8.IsWhole) (arg9 : Memref sig .tc .vmem S16x16384 .f32) (harg9 : arg9.IsWhole)
    (hc1 : ¬ condFirst i = 1#1) (hc2 : ¬ k0_cond2 i = 1#1)
    (x1 : Vec F S256x16384 .f32) (z : Vec F S16384x16 .f32) (g : Buf (Elt F) (arg9.view.loc (c : Thread nD τ))) (K : PUnit → sProp 𝕄) :
    iprop(owns (c : Thread nD τ) arg2 fullShare x1 ∗ owns (c : Thread nD τ) arg8 fullShare z
        ∗ (arg9.view.loc (c : Thread nD τ) ↦[arg9.view.set]{fullShare} g)
        ∗ (iprop(owns (c : Thread nD τ) arg2 fullShare x1 ∗ owns (c : Thread nD τ) arg8 fullShare z
            ∗ (arg9.view.loc (c : Thread nD τ) ↦[arg9.view.set]{fullShare}
                arg9.view.writes (Elt F) g [⟨Rect.unit (s := S16x16384) (k0_off1 i) S16x256.size (k0_off1_inb i), k0_pay2 x1 z⟩])) -∗ K ⟨⟩))
      ⊢ wp frame (wpE (defs₀ (F := F)) Variants.none c none) Set.univ (cc0__simplicial_conv_kernel (F := F) i arg1 harg1 arg2 harg2 arg3 harg3 arg4 harg4 arg5 harg5 arg6 harg6 arg7 harg7 arg8 harg8 arg9 harg9) K := by
  simp only [cc0__simplicial_conv_kernel_eq_skeleton]; unfold cc0__simplicial_conv_kernel_skel
  unfold owns condFirst at *
  iintro ⟨⟨%f2, %hf2, H2⟩, ⟨%f8, %hf8, H8⟩, H9, Hk⟩
  subst hf2 hf8
  sl_exec (disch := first | exact hc1 | exact hc2)
  sl_step
  simp only [View.readAt_eq_ld, View.ld_unit_zero (S := S256x16384) off0, View.ld_unit_zero (S := S16384x16) off0]
  iapply Hk
  isplitl [H2]
  · iexists f2; isplitr; · ipureintro; rfl
    iexact H2
  isplitl [H8]
  · iexists f8; isplitr; · ipureintro; rfl
    iexact H8
  iexact H9

/-- One store through the whole-buffer rectangle covers every index of the first scratch. -/
theorem cover_proj (w : Vec F S16384x16 .f32) (y : S16384x16.Idx) :
    ∃ pc ∈ ([⟨Rect.unit (s := S16384x16) ![0, 0] S16384x16.size inb_S16384x16_S16384x16_0_0, w⟩] : List (View.Piece (Elt F) S16384x16 .f32)), y ∈ pc.1.set :=
  View.cover_of_tiled [⟨Rect.unit (s := S16384x16) ![0, 0] S16384x16.size inb_S16384x16_S16384x16_0_0, w⟩] S16384x16.size (by rfl) y

/-- The FIRST point: the projection `Z_H · Wᵀ + b` is computed and stored whole into the first scratch (over whatever
    it held), read back, and the first row block's product with it, transposed, stored into columns `[0, 256)` of the
    second scratch. -/
theorem run_first (c : Dev nD) (i : grid0.Coords) (arg1 : Memref sig .tc .vmem S16384x128 .f32) (harg1 : arg1.IsWhole) (arg2 : Memref sig .tc .vmem S256x16384 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S1x16384 .f32) (harg7 : arg7.IsWhole) (arg8 : Memref sig .tc .vmem S16384x16 .f32) (harg8 : arg8.IsWhole) (arg9 : Memref sig .tc .vmem S16x16384 .f32) (harg9 : arg9.IsWhole)
    (hc1 : condFirst i = 1#1) (hc2 : ¬ k0_cond2 i = 1#1)
    (x0 : Vec F S16384x128 .f32) (x1 : Vec F S256x16384 .f32) (x2 : Vec F S16x128 .f32) (x3 : Vec F S1x16 .f32)
    (g8 : Buf (Elt F) (arg8.view.loc (c : Thread nD τ))) (g : Buf (Elt F) (arg9.view.loc (c : Thread nD τ))) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (arg8.view.loc (c : Thread nD τ) ↦[arg8.view.set]{fullShare} g8)
        ∗ (arg9.view.loc (c : Thread nD τ) ↦[arg9.view.set]{fullShare} g)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg8 fullShare (k0_pay1 x0 x2 x3)
            ∗ (arg9.view.loc (c : Thread nD τ) ↦[arg9.view.set]{fullShare}
                arg9.view.writes (Elt F) g [⟨Rect.unit (s := S16x16384) (k0_off1 i) S16x256.size (k0_off1_inb i), k0_pay2 x1 (k0_pay1 x0 x2 x3)⟩])) -∗ K ⟨⟩))
      ⊢ wp frame (wpE (defs₀ (F := F)) Variants.none c none) Set.univ (cc0__simplicial_conv_kernel (F := F) i arg1 harg1 arg2 harg2 arg3 harg3 arg4 harg4 arg5 harg5 arg6 harg6 arg7 harg7 arg8 harg8 arg9 harg9) K := by
  simp only [cc0__simplicial_conv_kernel_eq_skeleton]; unfold cc0__simplicial_conv_kernel_skel
  unfold owns condFirst at *
  iintro ⟨⟨%f1, %hf1, H1⟩, ⟨%f2, %hf2, H2⟩, ⟨%f3, %hf3, H3⟩, ⟨%f4, %hf4, H4⟩, H8, H9, Hk⟩
  subst hf1 hf2 hf3 hf4
  sl_exec (disch := first | exact hc1 | exact hc2)
  sl_step
  sl_unfold_words
  simp only [View.readAt_eq_ld, View.readCov_unit_zero (S := S16384x16) _ off0, View.ld_unit_zero (S := S256x16384) off0, View.ld_unit_zero (S := S16384x16) off0,
    View.ld_unit_zero (S := S16384x128) off0, View.ld_unit_zero (S := S16x128) off0, View.ld_unit_zero (S := S1x16) off0]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    rw [View.read_writes_eq_canon _ _ _ (cover_proj _), View.canon_unit_zero (S := S16384x16) off0]
  iexact H9

/-- One store through the whole-buffer rectangle covers every index of the output's staging buffer. -/
theorem cover_out (w : Vec F S1x16384 .f32) (y : S1x16384.Idx) :
    ∃ pc ∈ ([⟨Rect.unit (s := S1x16384) ![0, 0] S1x16384.size inb_S1x16384_S1x16384_0_0, w⟩] : List (View.Piece (Elt F) S1x16384 .f32)), y ∈ pc.1.set :=
  View.cover_of_tiled [⟨Rect.unit (s := S1x16384) ![0, 0] S1x16384.size inb_S1x16384_S1x16384_0_0, w⟩] S1x16384.size (by rfl) y

/-- The LAST point: after its own column slice is stored, the whole second scratch is read back, batch-normalised
    feature by feature, scaled, shifted, rectified, and its maximum over the features stored into the output's buffer. -/
theorem run_last (c : Dev nD) (i : grid0.Coords) (arg1 : Memref sig .tc .vmem S16384x128 .f32) (harg1 : arg1.IsWhole) (arg2 : Memref sig .tc .vmem S256x16384 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S1x16384 .f32) (harg7 : arg7.IsWhole) (arg8 : Memref sig .tc .vmem S16384x16 .f32) (harg8 : arg8.IsWhole) (arg9 : Memref sig .tc .vmem S16x16384 .f32) (harg9 : arg9.IsWhole)
    (hc1 : ¬ condFirst i = 1#1) (hc2 : k0_cond2 i = 1#1)
    (x1 : Vec F S256x16384 .f32) (z : Vec F S16384x16 .f32) (x4 x5 : Vec F S16x1 .f32)
    (g : Buf (Elt F) (arg9.view.loc (c : Thread nD τ))) (K : PUnit → sProp 𝕄) :
    iprop(owns (c : Thread nD τ) arg2 fullShare x1 ∗ owns (c : Thread nD τ) arg8 fullShare z
        ∗ (arg9.view.loc (c : Thread nD τ) ↦[arg9.view.set]{fullShare} g)
        ∗ owns (c : Thread nD τ) arg5 fullShare x4 ∗ owns (c : Thread nD τ) arg6 fullShare x5
        ∗ (∃ d, owns (c : Thread nD τ) arg7 fullShare d)
        ∗ (iprop(owns (c : Thread nD τ) arg2 fullShare x1 ∗ owns (c : Thread nD τ) arg8 fullShare z
            ∗ (arg9.view.loc (c : Thread nD τ) ↦[arg9.view.set]{fullShare}
                arg9.view.writes (Elt F) g [⟨Rect.unit (s := S16x16384) (k0_off1 i) S16x256.size (k0_off1_inb i), k0_pay2 x1 z⟩])
            ∗ owns (c : Thread nD τ) arg5 fullShare x4 ∗ owns (c : Thread nD τ) arg6 fullShare x5
            ∗ owns (c : Thread nD τ) arg7 fullShare
                (k0_pay3 (arg9.view.read (Elt F) (arg9.view.writes (Elt F) g [⟨Rect.unit (s := S16x16384) (k0_off1 i) S16x256.size (k0_off1_inb i), k0_pay2 x1 z⟩])) x4 x5)) -∗ K ⟨⟩))
      ⊢ wp frame (wpE (defs₀ (F := F)) Variants.none c none) Set.univ (cc0__simplicial_conv_kernel (F := F) i arg1 harg1 arg2 harg2 arg3 harg3 arg4 harg4 arg5 harg5 arg6 harg6 arg7 harg7 arg8 harg8 arg9 harg9) K := by
  simp only [cc0__simplicial_conv_kernel_eq_skeleton]; unfold cc0__simplicial_conv_kernel_skel
  unfold owns condFirst at *
  iintro ⟨⟨%f2, %hf2, H2⟩, ⟨%f8, %hf8, H8⟩, H9, ⟨%f5, %hf5, H5⟩, ⟨%f6, %hf6, H6⟩, ⟨%d7, %g7, -, H7⟩, Hk⟩
  subst hf2 hf8 hf5 hf6
  sl_exec (disch := first | exact hc1 | exact hc2)
  sl_step
  sl_unfold_words
  simp only [View.readAt_eq_ld, View.ld_unit_zero (S := S256x16384) off0, View.ld_unit_zero (S := S16384x16) off0,
    View.ld_unit_zero (S := S16x16384) off0, View.ld_unit_zero (S := S16x1) off0]
  iapply Hk
  isplitl [H2]
  · iexists f2; isplitr; · ipureintro; rfl
    iexact H2
  isplitl [H8]
  · iexists f8; isplitr; · ipureintro; rfl
    iexact H8
  isplitl [H9]; · iexact H9
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_out _), View.canon_unit_zero (S := S1x16384) off0]

/-! ## What the two scratch buffers hold, point by point -/

theorem N64 : cfg0.N = 64 := N_0

/-- The grid's first and last points. -/
def tFirst : Fin cfg0.N := ⟨0, by rw [N64]; omega⟩
def tLast : Fin cfg0.N := ⟨63, by rw [N64]; omega⟩

/-- The point that stores column `j` of the transposed convolution: columns come in slices of 256. -/
def tOfCol (j : ℕ) (hj : j < 16384) : Fin cfg0.N := ⟨j / 256, by rw [N64]; omega⟩

section Data

variable (m : (ℓ : Loc nD τ sig) → Buf (Elt F) ℓ) (ρ : Dev nD → PrngReg)

/-- The projection `Z_H · Wᵀ + b`, as the first point leaves it in the first scratch. -/
def projV (c : Dev nD) : Vec F S16384x16 .f32 := k0_pay1 (iblk m c 0 tFirst) (iblk m c 2 tFirst) (iblk m c 3 tFirst)

/-- The transposed convolution `(L · proj)ᵀ` the second scratch ends with: column `j` is, feature by feature, row
    `j mod 256` of the product of the Laplacian's row block `j / 256` with the projection. -/
def convT (c : Dev nD) : Vec F S16x16384 .f32 := fun y =>
  k0_pay2 (iblk m c 1 (tOfCol (y 1).val (ValueIdx.idx2_lt1 y))) (projV m c)
    (ValueIdx.ix2 (⟨(y 0).val, ValueIdx.idx2_lt0 y⟩ : Fin 16) (⟨(y 1).val % 256, Nat.mod_lt _ (by decide)⟩ : Fin 256))

/-- What the last point stores into the output's buffer. -/
def outV (c : Dev nD) : Vec F S1x16384 .f32 := k0_pay3 (convT m c) (iblk m c 4 tLast) (iblk m c 5 tLast)

/-- Before point `n` the columns below `256 · n` of the second scratch hold the transposed convolution. -/
def Filled (c : Dev nD) (n : ℕ) (X : Vec F S16x16384 .f32) : Prop :=
  ∀ y : S16x16384.Idx, (y 1).val < 256 * n → X y = convT m c y

abbrev scr0 : Memref sig .tc .vmem S16384x16 .f32 := Memref.whole cc0_scratch0
abbrev scr1 : Memref sig .tc .vmem S16x16384 .f32 := Memref.whole cc0_scratch1

/-- The region invariant before point `n`: before the first point both scratch buffers hold anything; afterwards the
    first holds the projection and the second is filled below column `256 · n`. -/
def PhiS (c : Dev nD) : ℕ → sProp 𝕄
  | 0 => ΦA spec0 c
  | n + 1 => iprop((owns (c : Thread nD τ) scr0 fullShare (projV m c)
      ∗ (∃ g, ⌜Filled m c (n + 1) (scr1.view.read (Elt F) g)⌝ ∗ (scr1.view.loc (c : Thread nD τ) ↦[scr1.view.set]{fullShare} g)))
      ∗ (∃ r, prngReg c r))

/-- The proof data of the one pipeline on core `c`: the arrays as the region finds them; after the body each input's
    buffer at its block and the output's at `outV` (it is stored, and written back, at the last point only); the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Data

end Cert.Kernel.Body

end
-- ==== Proof.SliceStepK.lean ====
/-
  A buffer of shape [16, 16384] filled 256 columns at a time. After the store of slice `t` (every row, the columns
  [256·t, 256·t + 256)), every column below 256·(t + 1) holds the intended value: a column below 256·t lies outside the
  newest slice on the column axis and keeps what it held, and a column in [256·t, 256·t + 256) lies inside it at the
  position (row, column − 256·t), where it reads the stored payload.
-/
import proofs.«145461_g64123861729553_cont_9to1_m_268_10_alg».proof.Kernel
import Idealize.ShloMosaic.Lib.WritesUnit

namespace Cert.Kernel.Slice

open Idealize.ShloMosaic Cert.Kernel

/-- The buffer read after the store of slice `t`, at any column below 256·(t + 1). -/
theorem read_after_slice {Val : EltTy → Type} {κ : Kind} {sp : Space} (v : View sig κ sp S16x16384 .f32) (f : v.ty.Contents Val)
    (off : Fin 2 → ℕ) (inb : ∀ a, off a + S16x256.size a ≤ S16x16384.size a) (t : ℕ) (heq : off = ![0, 256 * t])
    (w : (Rect.unit (s := S16x16384) off S16x256.size inb).shape.Idx → Val .f32) (G : S16x16384.Idx → Val .f32)
    (hprev : ∀ y : S16x16384.Idx, (y 1).val < 256 * t → v.read Val f y = G y)
    (hw : ∀ (y : S16x16384.Idx) (x : (Rect.unit (s := S16x16384) off S16x256.size inb).shape.Idx),
      (y 0).val = (x 0).val → (y 1).val = 256 * t + (x 1).val → w x = G y) :
    ∀ y : S16x16384.Idx, (y 1).val < 256 * (t + 1) →
      v.read Val (v.writes Val f [⟨Rect.unit (s := S16x16384) off S16x256.size inb, w⟩]) y = G y := by
  intro y hy
  by_cases hlt : (y 1).val < 256 * t
  · -- the column is below the slice: the newest store does not reach it
    have hmiss : (y 1).val < (![0, 256 * t] : Fin 2 → ℕ) 1 ∨ (![0, 256 * t] : Fin 2 → ℕ) 1 + S16x256.size 1 ≤ (y 1).val :=
      Or.inl hlt
    rw [View.read_writes_cons_unit_of_not_mem v f inb w [] y heq 1 hmiss, View.writes_nil]
    exact hprev y hlt
  · -- the column is inside the slice, at (row, column − 256·t)
    have h0 : (y 0).val < 16 := (y 0).isLt
    have hmem : ∀ a : Fin 2, (![0, 256 * t] : Fin 2 → ℕ) a ≤ (y a).val
        ∧ (y a).val < (![0, 256 * t] : Fin 2 → ℕ) a + S16x256.size a :=
      Fin.forall_fin_two.mpr
        ⟨⟨Nat.zero_le _, show (y 0).val < 0 + 16 by omega⟩,
          ⟨show 256 * t ≤ (y 1).val by omega, show (y 1).val < 256 * t + 256 by omega⟩⟩
    rw [View.read_writes_cons_unit_of_mem v f inb w [] y
      (Rect.unitLocal (s := S16x16384) (off := ![0, 256 * t]) (size := S16x256.size) y hmem) heq
      (fun a => by have := hmem a; rw [Rect.unitLocal_val]; omega)]
    refine hw y _ ?_ ?_
    · show (y 0).val = (y 0).val - 0
      omega
    · show (y 1).val = 256 * t + ((y 1).val - 256 * t)
      omega

end Cert.Kernel.Slice
-- ==== Proof.BodyFrameK.lean ====
import proofs.«145461_g64123861729553_cont_9to1_m_268_10_alg».proof.Proof.BodyK
import proofs.«145461_g64123861729553_cont_9to1_m_268_10_alg».proof.Proof.SliceStepK

set_option maxRecDepth 16384

noncomputable section

namespace Cert.Kernel.Body

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The slice a point stores is the specification's -/

/-- What point `t` stores at position `x` of its slice is the transposed convolution at the column `256·t + x₁`. -/
theorem slice_eq_convT (c : Dev nD) (t : Fin cfg0.N) (y : S16x16384.Idx)
    (x : (Rect.unit (s := S16x16384) (k0_off1 (grid0.coords t)) S16x256.size (k0_off1_inb (grid0.coords t))).shape.Idx)
    (h0 : (y 0).val = (x 0).val) (h1 : (y 1).val = 256 * t.val + (x 1).val) :
    k0_pay2 (iblk m c 1 t) (projV m c) x = convT m c y := by
  have hx1 : (x 1).val < 256 := (x 1).isLt
  have ht : tOfCol (y 1).val (ValueIdx.idx2_lt1 y) = t := Fin.ext (by
    show (y 1).val / 256 = t.val
    rw [h1]; omega)
  unfold convT
  rw [ht]
  refine congrArg (k0_pay2 (iblk m c 1 t) (projV m c)) ?_
  funext a
  match a with
  | ⟨0, _⟩ => exact Fin.ext h0.symm
  | ⟨1, _⟩ => exact Fin.ext (by show (x 1).val = (y 1).val % 256; rw [h1]; omega)

/-- One more slice: if the columns below `256·t` are filled, after point `t`'s store those below `256·(t+1)` are. -/
theorem filled_step (c : Dev nD) (t : Fin cfg0.N) (g : Buf (Elt F) (scr1.view.loc (c : Thread nD τ)))
    (h : Filled m c t.val (scr1.view.read (Elt F) g)) :
    Filled m c (t.val + 1) (scr1.view.read (Elt F) (scr1.view.writes (Elt F) g
      [⟨Rect.unit (s := S16x16384) (k0_off1 (grid0.coords t)) S16x256.size (k0_off1_inb (grid0.coords t)), k0_pay2 (iblk m c 1 t) (projV m c)⟩])) :=
  Slice.read_after_slice scr1.view g _ _ t.val (off_eq t) _ (convT m c) h (fun y x h0 h1 => slice_eq_convT m c t y x h0 h1)

/-- At the first point nothing is required of what the second scratch held. -/
theorem filled_zero (c : Dev nD) (X : Vec F S16x16384 .f32) : Filled m c 0 X := fun y hy => absurd hy (by omega)

/-- After the last point every column is filled: the second scratch reads as the transposed convolution. -/
theorem filled_all (c : Dev nD) (X : Vec F S16x16384 .f32) (h : Filled m c 64 X) : X = convT m c :=
  funext fun y => h y (by have := ValueIdx.idx2_lt1 y; omega)

/-! ## The output window is idle until the last point -/

theorem idle_out (t : Fin cfg0.N) (h : ¬ t.val = 63) : cfg0.idle 6 (cfg0.grid.coords t) = true := by
  have hc : ¬ k0_cond2 (grid0.coords t) = 1#1 := fun hc => h ((condLast_iff t).mp hc)
  show (!(k0_cond2 (grid0.coords t) == 1#1)) = true
  simp [hc]

theorem live_out (t : Fin cfg0.N) (h : t.val = 63) : cfg0.idle 6 (cfg0.grid.coords t) = false := by
  have hc : k0_cond2 (grid0.coords t) = 1#1 := (condLast_iff t).mpr h
  show (!(k0_cond2 (grid0.coords t) == 1#1)) = false
  simp [hc]

theorem noflush_out (t : Fin cfg0.N) (h : ¬ t.val = 63) : (cfg0.win 6).flush t = false := by
  have hN : t.val < 64 := lt_of_lt_of_eq t.isLt N64
  cases hf : (cfg0.win 6).flush t
  · rfl
  · exact absurd ((flush0_6 t).mp hf) (by omega)

/-! ## The scratch buffers as the class invariant holds them and as the body's run names them -/

theorem scr0_eq (c : Dev nD) (f : Buf (Elt F) ((c : Thread nD τ).loc cc0_scratch0)) :
    (scr0.view.loc (c : Thread nD τ) ↦[scr0.view.set]{fullShare} f : sProp 𝕄) = ((c : Thread nD τ).loc cc0_scratch0) ↦{fullShare} f := by
  simp only [Memref.view_whole, View.set_whole]
theorem scr1_eq (c : Dev nD) (f : Buf (Elt F) ((c : Thread nD τ).loc cc0_scratch1)) :
    (scr1.view.loc (c : Thread nD τ) ↦[scr1.view.set]{fullShare} f : sProp 𝕄) = ((c : Thread nD τ).loc cc0_scratch1) ↦{fullShare} f := by
  simp only [Memref.view_whole, View.set_whole]

/-! ## The body obligation, at a generic point -/

/-- After point `n` (before point `n + 1`). -/
theorem PhiS_succ (c : Dev nD) (n : ℕ) :
    PhiS m c (n + 1) = iprop((owns (c : Thread nD τ) scr0 fullShare (projV m c)
      ∗ (∃ g, ⌜Filled m c (n + 1) (scr1.view.read (Elt F) g)⌝ ∗ (scr1.view.loc (c : Thread nD τ) ↦[scr1.view.set]{fullShare} g)))
      ∗ (∃ r, prngReg c r)) := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: each input's buffer as it was, the output's as the library says for a window idle until the
    last point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

set_option maxHeartbeats 4000000 in
/-- The body at any point, by the three cases of the two conditionals. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    after0_0, after0_1, after0_2, after0_3, after0_4, after0_5, PhiS_succ]
  have hN : t.val < 64 := lt_of_lt_of_eq t.isLt N64
  by_cases h0 : t.val = 0
  · -- the first point
    have hc1 : condFirst (grid0.coords t) = 1#1 := (condFirst_iff t).mpr h0
    have hc2 : ¬ k0_cond2 (grid0.coords t) = 1#1 := fun h => by have := (condLast_iff t).mp h; omega
    have hfill := filled_zero m c
    rw [Dat.leavesExact_idle _ 6 t (idle_out t (by omega)) (noflush_out t (by omega))]
    rw [show PhiS m c t.val = ΦA spec0 c from by rw [h0]; rfl]
    have ht : t = tFirst := Fin.ext h0
    subst ht
    unfold ΦA; rw [scopedRest0_eq]
    iintro ⟨⟨⟨⟨%g8, HS0⟩, ⟨%g9, HS1⟩⟩, Hg⟩, Ho, ⟨%d0, H0⟩, ⟨%d1, H1⟩, ⟨%d2, H2⟩, ⟨%d3, H3⟩, ⟨%d4, H4⟩, ⟨%d5, H5⟩, H6⟩
    iapply (run_first c (grid0.coords tFirst) _ _ _ _ _ _ _ _ _ _ _ _ _ _ scr0 (Memref.isWhole_whole _) scr1 (Memref.isWhole_whole _) hc1 hc2
      (iblk m c 0 tFirst) (iblk m c 1 tFirst) (iblk m c 2 tFirst) (iblk m c 3 tFirst) g8 g9 _)
    isplitl [H0]; · iexact H0
    isplitl [H1]; · iexact H1
    isplitl [H2]; · iexact H2
    isplitl [H3]; · iexact H3
    isplitl [HS0]; · rw [scr0_eq]; iexact HS0
    isplitl [HS1]; · rw [scr1_eq]; iexact HS1
    iintro ⟨H0, H1, H2, H3, HS0, HS1⟩
    isplitl [HS0 HS1 Hg]
    · isplitl [HS0 HS1]
      · isplitl [HS0]; · iexact HS0
        iexists _; isplitr
        swap; · iexact HS1
        ipureintro
        exact filled_step m c tFirst g9 (hfill _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ := Nat.exists_eq_succ_of_ne_zero h0
    have hc1 : ¬ condFirst (grid0.coords t) = 1#1 := fun h => h0 ((condFirst_iff t).mp h)
    rw [show PhiS m c t.val = PhiS m c (n + 1) from by rw [hn], PhiS_succ]
    by_cases h63 : t.val = 63
    · -- the last point
      have hc2 : k0_cond2 (grid0.coords t) = 1#1 := (condLast_iff t).mpr h63
      rw [show (dats m 0 c).leavesExact 6 t = owns (c : Thread nD τ) (st0_6 t) fullShare ((dats m 0 c).after 6 t) from by
        unfold Dat.leavesExact; rw [live_out t h63], after0_6]
      have ht : t = tLast := Fin.ext h63
      subst ht
      iintro ⟨⟨⟨HS0, ⟨%g9, %hfill, HS1⟩⟩, Hg⟩, Ho, ⟨%d0, H0⟩, ⟨%d1, H1⟩, ⟨%d2, H2⟩, ⟨%d3, H3⟩, ⟨%d4, H4⟩, ⟨%d5, H5⟩, ⟨%d6, H6⟩⟩
      have hstep := filled_step m c tLast g9 (by rw [show tLast.val = n + 1 from hn]; exact hfill)
      have hX := filled_all m c _ hstep
      iapply (run_last c (grid0.coords tLast) _ _ _ _ _ _ _ _ _ _ _ _ _ _ scr0 (Memref.isWhole_whole _) scr1 (Memref.isWhole_whole _) hc1 hc2
        (iblk m c 1 tLast) (projV m c) (iblk m c 4 tLast) (iblk m c 5 tLast) g9 _)
      isplitl [H1]; · iexact H1
      isplitl [HS0]; · iexact HS0
      isplitl [HS1]; · iexact HS1
      isplitl [H4]; · iexact H4
      isplitl [H5]; · iexact H5
      isplitl [H6]; · iexists _; iexact H6
      iintro ⟨H1, HS0, HS1, H4, H5, H6⟩
      rw [hX]
      isplitl [HS0 HS1 Hg]
      · isplitl [HS0 HS1]
        · isplitl [HS0]; · iexact HS0
          iexists _; isplitr
          swap; · iexact HS1
          ipureintro
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hc2 : ¬ k0_cond2 (grid0.coords t) = 1#1 := fun h => h63 ((condLast_iff t).mp h)
      rw [Dat.leavesExact_idle _ 6 t (idle_out t h63) (noflush_out t h63)]
      iintro ⟨⟨⟨HS0, ⟨%g9, %hfill, HS1⟩⟩, Hg⟩, Ho, ⟨%d0, H0⟩, ⟨%d1, H1⟩, ⟨%d2, H2⟩, ⟨%d3, H3⟩, ⟨%d4, H4⟩, ⟨%d5, H5⟩, H6⟩
      have hstep := filled_step m c t g9 (by rw [hn]; exact hfill)
      iapply (run_mid c (grid0.coords t) _ _ _ _ _ _ _ _ _ _ _ _ _ _ scr0 (Memref.isWhole_whole _) scr1 (Memref.isWhole_whole _) hc1 hc2
        (iblk m c 1 t) (projV m c) g9 _)
      isplitl [H1]; · iexact H1
      isplitl [HS0]; · iexact HS0
      isplitl [HS1]; · iexact HS1
      iintro ⟨H1, HS0, HS1⟩
      isplitl [HS0 HS1 Hg]
      · isplitl [HS0 HS1]
        · isplitl [HS0]; · iexact HS0
          iexists _; isplitr
          swap; · iexact HS1
          ipureintro
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : ΦA spec0 c ⊢ (dats m 0 c).Φ 0 := by
  show ΦA spec0 c ⊢ PhiS m c 0
  exact .rfl

/-- After the last point the invariant gives the class's back: what the scratch buffers hold is forgotten. -/
theorem hout (c : Dev nD) : (dats m 0 c).Φ (Fin.last cfg0.N) ⊢ ΦA spec0 c := by
  rw [show (dats m 0 c).Φ (Fin.last cfg0.N) = PhiS m c (63 + 1) from rfl, PhiS_succ]
  unfold ΦA owns; rw [scopedRest0_eq]
  iintro ⟨⟨⟨%f8, -, HS0⟩, ⟨%g9, -, HS1⟩⟩, Hg⟩
  isplitl [HS0 HS1]
  · isplitl [HS0]
    · iexists f8; rw [← scr0_eq]; iexact HS0
    iexists g9; rw [← scr1_eq]; iexact HS1
  iexact Hg

/-! ## The run, the frame and the result array -/

-- the launch theorem's implicit arguments are found by unifying its conclusion with this one, which takes unfolding
-- plain definitions in a metavariable's type
set_option backward.isDefEq.respectTransparency.types false in
/-- Every weakly fair execution of @main terminates, and every final state has each array of the pipeline at what the
    library computes from the proof data and every other unscoped buffer at what the host line after the region
    leaves there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any `F`: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The output array after the run: its one block is the whole array, written back once, after the last point, so the
    array is what the last point left in the staging buffer. -/
theorem arr_out (c : Dev nD) : (dats m 0 c).arrAt 6 cfg0.N = outV m c := by
  rw [show cfg0.N = tLast.val + 1 from rfl, (dats m 0 c).arrAt_succ 6 tLast, if_pos ((flush0_6 tLast).mpr rfl)]
  have hz : (fun a => (win0_6.index tLast) a * main_v3.ty.shape.size a) = fun _ => 0 := funext fun a => by fin_cases a <;> decide
  refine (Memref.write_access_unit_zero_univ (Elt F) main_v3 hz _ _ _).trans ?_
  exact after0_6 m c tLast

end Cert.Kernel.Body

end
-- ==== Proof.Body.lean ====
import proofs.«145461_g64123861729553_cont_9to1_m_268_10_alg».proof.Proof.Gen.KernelIdeal.Frame
import proofs.«145461_g64123861729553_cont_9to1_m_268_10_alg».proof.Proof.Gen.KernelIdeal.Skeleton
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

/-! ## The conditions and the slice offset, in closed form over the grid -/

/-- The first conditional's word: set exactly at the grid's first point. -/
def condFirst (i : grid0.Coords) : BitVec 1 :=
  Scalar.cmpi .ne (Scalar.extui (Scalar.cmpi .eq (BitVec.ofNat 32 (i 0).val) 0#32)) 0#32

theorem condFirst_iff : ∀ t : Fin cfg0.N, condFirst (grid0.coords t) = 1#1 ↔ t.val = 0 :=
  (by decide +kernel : ∀ t : Fin grid0.N, condFirst (grid0.coords t) = 1#1 ↔ t.val = 0)

/-- The second conditional's word: set exactly at the grid's last point. -/
theorem condLast_iff : ∀ t : Fin cfg0.N, k0_cond2 (grid0.coords t) = 1#1 ↔ t.val = 63 :=
  (by decide +kernel : ∀ t : Fin grid0.N, k0_cond2 (grid0.coords t) = 1#1 ↔ t.val = 63)

/-- Point `t` stores the columns `[256·t, 256·t + 256)` of the transposed convolution. -/
theorem off_eq : ∀ t : Fin cfg0.N, k0_off1 (grid0.coords t) = ![0, 256 * t.val] :=
  (by decide +kernel : ∀ t : Fin grid0.N, k0_off1 (grid0.coords t) = ![0, 256 * t.val])

/-- The whole-buffer rectangle's offsets are zero. -/
theorem off0 : (![0, 0] : Fin 2 → ℕ) = fun _ => 0 := funext fun a => by fin_cases a <;> rfl

/-! ## The body's triples, one per case of the two conditionals -/

/-- A MIDDLE point (neither first nor last): the row block of the Laplacian times the projection held in the first
    scratch, transposed, is stored into its column slice of the second scratch; nothing else is touched. -/
theorem run_mid (c : Dev nD) (i : grid0.Coords) (arg1 : Memref sig .tc .vmem S16384x128 .f32) (harg1 : arg1.IsWhole) (arg2 : Memref sig .tc .vmem S256x16384 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S1x16384 .f32) (harg7 : arg7.IsWhole) (arg8 : Memref sig .tc .vmem S16384x16 .f32) (harg8 : arg8.IsWhole) (arg9 : Memref sig .tc .vmem S16x16384 .f32) (harg9 : arg9.IsWhole)
    (hc1 : ¬ condFirst i = 1#1) (hc2 : ¬ k0_cond2 i = 1#1)
    (x1 : Vec F S256x16384 .f32) (z : Vec F S16384x16 .f32) (g : Buf (Elt F) (arg9.view.loc (c : Thread nD τ))) (K : PUnit → sProp 𝕄) :
    iprop(owns (c : Thread nD τ) arg2 fullShare x1 ∗ owns (c : Thread nD τ) arg8 fullShare z
        ∗ (arg9.view.loc (c : Thread nD τ) ↦[arg9.view.set]{fullShare} g)
        ∗ (iprop(owns (c : Thread nD τ) arg2 fullShare x1 ∗ owns (c : Thread nD τ) arg8 fullShare z
            ∗ (arg9.view.loc (c : Thread nD τ) ↦[arg9.view.set]{fullShare}
                arg9.view.writes (Elt F) g [⟨Rect.unit (s := S16x16384) (k0_off1 i) S16x256.size (k0_off1_inb i), k0_pay2 x1 z⟩])) -∗ K ⟨⟩))
      ⊢ wp frame (wpE (defs₀ (F := F)) Variants.none c none) Set.univ (cc0__simplicial_conv_kernel (F := F) i arg1 harg1 arg2 harg2 arg3 harg3 arg4 harg4 arg5 harg5 arg6 harg6 arg7 harg7 arg8 harg8 arg9 harg9) K := by
  simp only [cc0__simplicial_conv_kernel_eq_skeleton]; unfold cc0__simplicial_conv_kernel_skel
  unfold owns condFirst at *
  iintro ⟨⟨%f2, %hf2, H2⟩, ⟨%f8, %hf8, H8⟩, H9, Hk⟩
  subst hf2 hf8
  sl_exec (disch := first | exact hc1 | exact hc2)
  sl_step
  simp only [View.readAt_eq_ld, View.ld_unit_zero (S := S256x16384) off0, View.ld_unit_zero (S := S16384x16) off0]
  iapply Hk
  isplitl [H2]
  · iexists f2; isplitr; · ipureintro; rfl
    iexact H2
  isplitl [H8]
  · iexists f8; isplitr; · ipureintro; rfl
    iexact H8
  iexact H9

/-- One store through the whole-buffer rectangle covers every index of the first scratch. -/
theorem cover_proj (w : Vec F S16384x16 .f32) (y : S16384x16.Idx) :
    ∃ pc ∈ ([⟨Rect.unit (s := S16384x16) ![0, 0] S16384x16.size inb_S16384x16_S16384x16_0_0, w⟩] : List (View.Piece (Elt F) S16384x16 .f32)), y ∈ pc.1.set :=
  View.cover_of_tiled [⟨Rect.unit (s := S16384x16) ![0, 0] S16384x16.size inb_S16384x16_S16384x16_0_0, w⟩] S16384x16.size (by rfl) y

/-- The FIRST point: the projection `Z_H · Wᵀ + b` is computed and stored whole into the first scratch (over whatever
    it held), read back, and the first row block's product with it, transposed, stored into columns `[0, 256)` of the
    second scratch. -/
theorem run_first (c : Dev nD) (i : grid0.Coords) (arg1 : Memref sig .tc .vmem S16384x128 .f32) (harg1 : arg1.IsWhole) (arg2 : Memref sig .tc .vmem S256x16384 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S1x16384 .f32) (harg7 : arg7.IsWhole) (arg8 : Memref sig .tc .vmem S16384x16 .f32) (harg8 : arg8.IsWhole) (arg9 : Memref sig .tc .vmem S16x16384 .f32) (harg9 : arg9.IsWhole)
    (hc1 : condFirst i = 1#1) (hc2 : ¬ k0_cond2 i = 1#1)
    (x0 : Vec F S16384x128 .f32) (x1 : Vec F S256x16384 .f32) (x2 : Vec F S16x128 .f32) (x3 : Vec F S1x16 .f32)
    (g8 : Buf (Elt F) (arg8.view.loc (c : Thread nD τ))) (g : Buf (Elt F) (arg9.view.loc (c : Thread nD τ))) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (arg8.view.loc (c : Thread nD τ) ↦[arg8.view.set]{fullShare} g8)
        ∗ (arg9.view.loc (c : Thread nD τ) ↦[arg9.view.set]{fullShare} g)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg8 fullShare (k0_pay1 x0 x2 x3)
            ∗ (arg9.view.loc (c : Thread nD τ) ↦[arg9.view.set]{fullShare}
                arg9.view.writes (Elt F) g [⟨Rect.unit (s := S16x16384) (k0_off1 i) S16x256.size (k0_off1_inb i), k0_pay2 x1 (k0_pay1 x0 x2 x3)⟩])) -∗ K ⟨⟩))
      ⊢ wp frame (wpE (defs₀ (F := F)) Variants.none c none) Set.univ (cc0__simplicial_conv_kernel (F := F) i arg1 harg1 arg2 harg2 arg3 harg3 arg4 harg4 arg5 harg5 arg6 harg6 arg7 harg7 arg8 harg8 arg9 harg9) K := by
  simp only [cc0__simplicial_conv_kernel_eq_skeleton]; unfold cc0__simplicial_conv_kernel_skel
  unfold owns condFirst at *
  iintro ⟨⟨%f1, %hf1, H1⟩, ⟨%f2, %hf2, H2⟩, ⟨%f3, %hf3, H3⟩, ⟨%f4, %hf4, H4⟩, H8, H9, Hk⟩
  subst hf1 hf2 hf3 hf4
  sl_exec (disch := first | exact hc1 | exact hc2)
  sl_step
  sl_unfold_words
  simp only [View.readAt_eq_ld, View.readCov_unit_zero (S := S16384x16) _ off0, View.ld_unit_zero (S := S256x16384) off0, View.ld_unit_zero (S := S16384x16) off0,
    View.ld_unit_zero (S := S16384x128) off0, View.ld_unit_zero (S := S16x128) off0, View.ld_unit_zero (S := S1x16) off0]
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H8]
  · iexists _; isplitr
    swap; · iexact H8
    ipureintro
    rw [View.read_writes_eq_canon _ _ _ (cover_proj _), View.canon_unit_zero (S := S16384x16) off0]
  iexact H9

/-- One store through the whole-buffer rectangle covers every index of the output's staging buffer. -/
theorem cover_out (w : Vec F S1x16384 .f32) (y : S1x16384.Idx) :
    ∃ pc ∈ ([⟨Rect.unit (s := S1x16384) ![0, 0] S1x16384.size inb_S1x16384_S1x16384_0_0, w⟩] : List (View.Piece (Elt F) S1x16384 .f32)), y ∈ pc.1.set :=
  View.cover_of_tiled [⟨Rect.unit (s := S1x16384) ![0, 0] S1x16384.size inb_S1x16384_S1x16384_0_0, w⟩] S1x16384.size (by rfl) y

/-- The LAST point: after its own column slice is stored, the whole second scratch is read back, batch-normalised
    feature by feature, scaled, shifted, rectified, and its maximum over the features stored into the output's buffer. -/
theorem run_last (c : Dev nD) (i : grid0.Coords) (arg1 : Memref sig .tc .vmem S16384x128 .f32) (harg1 : arg1.IsWhole) (arg2 : Memref sig .tc .vmem S256x16384 .f32) (harg2 : arg2.IsWhole) (arg3 : Memref sig .tc .vmem S16x128 .f32) (harg3 : arg3.IsWhole) (arg4 : Memref sig .tc .vmem S1x16 .f32) (harg4 : arg4.IsWhole) (arg5 : Memref sig .tc .vmem S16x1 .f32) (harg5 : arg5.IsWhole) (arg6 : Memref sig .tc .vmem S16x1 .f32) (harg6 : arg6.IsWhole) (arg7 : Memref sig .tc .vmem S1x16384 .f32) (harg7 : arg7.IsWhole) (arg8 : Memref sig .tc .vmem S16384x16 .f32) (harg8 : arg8.IsWhole) (arg9 : Memref sig .tc .vmem S16x16384 .f32) (harg9 : arg9.IsWhole)
    (hc1 : ¬ condFirst i = 1#1) (hc2 : k0_cond2 i = 1#1)
    (x1 : Vec F S256x16384 .f32) (z : Vec F S16384x16 .f32) (x4 x5 : Vec F S16x1 .f32)
    (g : Buf (Elt F) (arg9.view.loc (c : Thread nD τ))) (K : PUnit → sProp 𝕄) :
    iprop(owns (c : Thread nD τ) arg2 fullShare x1 ∗ owns (c : Thread nD τ) arg8 fullShare z
        ∗ (arg9.view.loc (c : Thread nD τ) ↦[arg9.view.set]{fullShare} g)
        ∗ owns (c : Thread nD τ) arg5 fullShare x4 ∗ owns (c : Thread nD τ) arg6 fullShare x5
        ∗ (∃ d, owns (c : Thread nD τ) arg7 fullShare d)
        ∗ (iprop(owns (c : Thread nD τ) arg2 fullShare x1 ∗ owns (c : Thread nD τ) arg8 fullShare z
            ∗ (arg9.view.loc (c : Thread nD τ) ↦[arg9.view.set]{fullShare}
                arg9.view.writes (Elt F) g [⟨Rect.unit (s := S16x16384) (k0_off1 i) S16x256.size (k0_off1_inb i), k0_pay2 x1 z⟩])
            ∗ owns (c : Thread nD τ) arg5 fullShare x4 ∗ owns (c : Thread nD τ) arg6 fullShare x5
            ∗ owns (c : Thread nD τ) arg7 fullShare
                (k0_pay3 (arg9.view.read (Elt F) (arg9.view.writes (Elt F) g [⟨Rect.unit (s := S16x16384) (k0_off1 i) S16x256.size (k0_off1_inb i), k0_pay2 x1 z⟩])) x4 x5)) -∗ K ⟨⟩))
      ⊢ wp frame (wpE (defs₀ (F := F)) Variants.none c none) Set.univ (cc0__simplicial_conv_kernel (F := F) i arg1 harg1 arg2 harg2 arg3 harg3 arg4 harg4 arg5 harg5 arg6 harg6 arg7 harg7 arg8 harg8 arg9 harg9) K := by
  simp only [cc0__simplicial_conv_kernel_eq_skeleton]; unfold cc0__simplicial_conv_kernel_skel
  unfold owns condFirst at *
  iintro ⟨⟨%f2, %hf2, H2⟩, ⟨%f8, %hf8, H8⟩, H9, ⟨%f5, %hf5, H5⟩, ⟨%f6, %hf6, H6⟩, ⟨%d7, %g7, -, H7⟩, Hk⟩
  subst hf2 hf8 hf5 hf6
  sl_exec (disch := first | exact hc1 | exact hc2)
  sl_step
  sl_unfold_words
  simp only [View.readAt_eq_ld, View.ld_unit_zero (S := S256x16384) off0, View.ld_unit_zero (S := S16384x16) off0,
    View.ld_unit_zero (S := S16x16384) off0, View.ld_unit_zero (S := S16x1) off0]
  iapply Hk
  isplitl [H2]
  · iexists f2; isplitr; · ipureintro; rfl
    iexact H2
  isplitl [H8]
  · iexists f8; isplitr; · ipureintro; rfl
    iexact H8
  isplitl [H9]; · iexact H9
  isplitl [H5]
  · iexists f5; isplitr; · ipureintro; rfl
    iexact H5
  isplitl [H6]
  · iexists f6; isplitr; · ipureintro; rfl
    iexact H6
  iexists _; isplitr
  swap; · iexact H7
  ipureintro
  rw [View.read_writes_eq_canon _ _ _ (cover_out _), View.canon_unit_zero (S := S1x16384) off0]

/-! ## What the two scratch buffers hold, point by point -/

theorem N64 : cfg0.N = 64 := N_0

/-- The grid's first and last points. -/
def tFirst : Fin cfg0.N := ⟨0, by rw [N64]; omega⟩
def tLast : Fin cfg0.N := ⟨63, by rw [N64]; omega⟩

/-- The point that stores column `j` of the transposed convolution: columns come in slices of 256. -/
def tOfCol (j : ℕ) (hj : j < 16384) : Fin cfg0.N := ⟨j / 256, by rw [N64]; omega⟩

section Data

variable (m : (ℓ : Loc nD τ sig) → Buf (Elt F) ℓ) (ρ : Dev nD → PrngReg)

/-- The projection `Z_H · Wᵀ + b`, as the first point leaves it in the first scratch. -/
def projV (c : Dev nD) : Vec F S16384x16 .f32 := k0_pay1 (iblk m c 0 tFirst) (iblk m c 2 tFirst) (iblk m c 3 tFirst)

/-- The transposed convolution `(L · proj)ᵀ` the second scratch ends with: column `j` is, feature by feature, row
    `j mod 256` of the product of the Laplacian's row block `j / 256` with the projection. -/
def convT (c : Dev nD) : Vec F S16x16384 .f32 := fun y =>
  k0_pay2 (iblk m c 1 (tOfCol (y 1).val (ValueIdx.idx2_lt1 y))) (projV m c)
    (ValueIdx.ix2 (⟨(y 0).val, ValueIdx.idx2_lt0 y⟩ : Fin 16) (⟨(y 1).val % 256, Nat.mod_lt _ (by decide)⟩ : Fin 256))

/-- What the last point stores into the output's buffer. -/
def outV (c : Dev nD) : Vec F S1x16384 .f32 := k0_pay3 (convT m c) (iblk m c 4 tLast) (iblk m c 5 tLast)

/-- Before point `n` the columns below `256 · n` of the second scratch hold the transposed convolution. -/
def Filled (c : Dev nD) (n : ℕ) (X : Vec F S16x16384 .f32) : Prop :=
  ∀ y : S16x16384.Idx, (y 1).val < 256 * n → X y = convT m c y

abbrev scr0 : Memref sig .tc .vmem S16384x16 .f32 := Memref.whole cc0_scratch0
abbrev scr1 : Memref sig .tc .vmem S16x16384 .f32 := Memref.whole cc0_scratch1

/-- The region invariant before point `n`: before the first point both scratch buffers hold anything; afterwards the
    first holds the projection and the second is filled below column `256 · n`. -/
def PhiS (c : Dev nD) : ℕ → sProp 𝕄
  | 0 => ΦA spec0 c
  | n + 1 => iprop((owns (c : Thread nD τ) scr0 fullShare (projV m c)
      ∗ (∃ g, ⌜Filled m c (n + 1) (scr1.view.read (Elt F) g)⌝ ∗ (scr1.view.loc (c : Thread nD τ) ↦[scr1.view.set]{fullShare} g)))
      ∗ (∃ r, prngReg c r))

/-- The proof data of the one pipeline on core `c`: the arrays as the region finds them; after the body each input's
    buffer at its block and the output's at `outV` (it is stored, and written back, at the last point only); the
    invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outV m c
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outV m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Data

end Cert.KernelIdeal.Body

end
-- ==== Proof.SliceStep.lean ====
/-
  A buffer of shape [16, 16384] filled 256 columns at a time. After the store of slice `t` (every row, the columns
  [256·t, 256·t + 256)), every column below 256·(t + 1) holds the intended value: a column below 256·t lies outside the
  newest slice on the column axis and keeps what it held, and a column in [256·t, 256·t + 256) lies inside it at the
  position (row, column − 256·t), where it reads the stored payload.
-/
import proofs.«145461_g64123861729553_cont_9to1_m_268_10_alg».proof.KernelIdeal
import Idealize.ShloMosaic.Lib.WritesUnit

namespace Cert.KernelIdeal.Slice

open Idealize.ShloMosaic Cert.KernelIdeal

/-- The buffer read after the store of slice `t`, at any column below 256·(t + 1). -/
theorem read_after_slice {Val : EltTy → Type} {κ : Kind} {sp : Space} (v : View sig κ sp S16x16384 .f32) (f : v.ty.Contents Val)
    (off : Fin 2 → ℕ) (inb : ∀ a, off a + S16x256.size a ≤ S16x16384.size a) (t : ℕ) (heq : off = ![0, 256 * t])
    (w : (Rect.unit (s := S16x16384) off S16x256.size inb).shape.Idx → Val .f32) (G : S16x16384.Idx → Val .f32)
    (hprev : ∀ y : S16x16384.Idx, (y 1).val < 256 * t → v.read Val f y = G y)
    (hw : ∀ (y : S16x16384.Idx) (x : (Rect.unit (s := S16x16384) off S16x256.size inb).shape.Idx),
      (y 0).val = (x 0).val → (y 1).val = 256 * t + (x 1).val → w x = G y) :
    ∀ y : S16x16384.Idx, (y 1).val < 256 * (t + 1) →
      v.read Val (v.writes Val f [⟨Rect.unit (s := S16x16384) off S16x256.size inb, w⟩]) y = G y := by
  intro y hy
  by_cases hlt : (y 1).val < 256 * t
  · -- the column is below the slice: the newest store does not reach it
    have hmiss : (y 1).val < (![0, 256 * t] : Fin 2 → ℕ) 1 ∨ (![0, 256 * t] : Fin 2 → ℕ) 1 + S16x256.size 1 ≤ (y 1).val :=
      Or.inl hlt
    rw [View.read_writes_cons_unit_of_not_mem v f inb w [] y heq 1 hmiss, View.writes_nil]
    exact hprev y hlt
  · -- the column is inside the slice, at (row, column − 256·t)
    have h0 : (y 0).val < 16 := (y 0).isLt
    have hmem : ∀ a : Fin 2, (![0, 256 * t] : Fin 2 → ℕ) a ≤ (y a).val
        ∧ (y a).val < (![0, 256 * t] : Fin 2 → ℕ) a + S16x256.size a :=
      Fin.forall_fin_two.mpr
        ⟨⟨Nat.zero_le _, show (y 0).val < 0 + 16 by omega⟩,
          ⟨show 256 * t ≤ (y 1).val by omega, show (y 1).val < 256 * t + 256 by omega⟩⟩
    rw [View.read_writes_cons_unit_of_mem v f inb w [] y
      (Rect.unitLocal (s := S16x16384) (off := ![0, 256 * t]) (size := S16x256.size) y hmem) heq
      (fun a => by have := hmem a; rw [Rect.unitLocal_val]; omega)]
    refine hw y _ ?_ ?_
    · show (y 0).val = (y 0).val - 0
      omega
    · show (y 1).val = 256 * t + ((y 1).val - 256 * t)
      omega

end Cert.KernelIdeal.Slice
-- ==== Proof.BodyFrame.lean ====
import proofs.«145461_g64123861729553_cont_9to1_m_268_10_alg».proof.Proof.Body
import proofs.«145461_g64123861729553_cont_9to1_m_268_10_alg».proof.Proof.SliceStep

set_option maxRecDepth 16384

noncomputable section

namespace Cert.KernelIdeal.Body

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## The slice a point stores is the specification's -/

/-- What point `t` stores at position `x` of its slice is the transposed convolution at the column `256·t + x₁`. -/
theorem slice_eq_convT (c : Dev nD) (t : Fin cfg0.N) (y : S16x16384.Idx)
    (x : (Rect.unit (s := S16x16384) (k0_off1 (grid0.coords t)) S16x256.size (k0_off1_inb (grid0.coords t))).shape.Idx)
    (h0 : (y 0).val = (x 0).val) (h1 : (y 1).val = 256 * t.val + (x 1).val) :
    k0_pay2 (iblk m c 1 t) (projV m c) x = convT m c y := by
  have hx1 : (x 1).val < 256 := (x 1).isLt
  have ht : tOfCol (y 1).val (ValueIdx.idx2_lt1 y) = t := Fin.ext (by
    show (y 1).val / 256 = t.val
    rw [h1]; omega)
  unfold convT
  rw [ht]
  refine congrArg (k0_pay2 (iblk m c 1 t) (projV m c)) ?_
  funext a
  match a with
  | ⟨0, _⟩ => exact Fin.ext h0.symm
  | ⟨1, _⟩ => exact Fin.ext (by show (x 1).val = (y 1).val % 256; rw [h1]; omega)

/-- One more slice: if the columns below `256·t` are filled, after point `t`'s store those below `256·(t+1)` are. -/
theorem filled_step (c : Dev nD) (t : Fin cfg0.N) (g : Buf (Elt F) (scr1.view.loc (c : Thread nD τ)))
    (h : Filled m c t.val (scr1.view.read (Elt F) g)) :
    Filled m c (t.val + 1) (scr1.view.read (Elt F) (scr1.view.writes (Elt F) g
      [⟨Rect.unit (s := S16x16384) (k0_off1 (grid0.coords t)) S16x256.size (k0_off1_inb (grid0.coords t)), k0_pay2 (iblk m c 1 t) (projV m c)⟩])) :=
  Slice.read_after_slice scr1.view g _ _ t.val (off_eq t) _ (convT m c) h (fun y x h0 h1 => slice_eq_convT m c t y x h0 h1)

/-- At the first point nothing is required of what the second scratch held. -/
theorem filled_zero (c : Dev nD) (X : Vec F S16x16384 .f32) : Filled m c 0 X := fun y hy => absurd hy (by omega)

/-- After the last point every column is filled: the second scratch reads as the transposed convolution. -/
theorem filled_all (c : Dev nD) (X : Vec F S16x16384 .f32) (h : Filled m c 64 X) : X = convT m c :=
  funext fun y => h y (by have := ValueIdx.idx2_lt1 y; omega)

/-! ## The output window is idle until the last point -/

theorem idle_out (t : Fin cfg0.N) (h : ¬ t.val = 63) : cfg0.idle 6 (cfg0.grid.coords t) = true := by
  have hc : ¬ k0_cond2 (grid0.coords t) = 1#1 := fun hc => h ((condLast_iff t).mp hc)
  show (!(k0_cond2 (grid0.coords t) == 1#1)) = true
  simp [hc]

theorem live_out (t : Fin cfg0.N) (h : t.val = 63) : cfg0.idle 6 (cfg0.grid.coords t) = false := by
  have hc : k0_cond2 (grid0.coords t) = 1#1 := (condLast_iff t).mpr h
  show (!(k0_cond2 (grid0.coords t) == 1#1)) = false
  simp [hc]

theorem noflush_out (t : Fin cfg0.N) (h : ¬ t.val = 63) : (cfg0.win 6).flush t = false := by
  have hN : t.val < 64 := lt_of_lt_of_eq t.isLt N64
  cases hf : (cfg0.win 6).flush t
  · rfl
  · exact absurd ((flush0_6 t).mp hf) (by omega)

/-! ## The scratch buffers as the class invariant holds them and as the body's run names them -/

theorem scr0_eq (c : Dev nD) (f : Buf (Elt F) ((c : Thread nD τ).loc cc0_scratch0)) :
    (scr0.view.loc (c : Thread nD τ) ↦[scr0.view.set]{fullShare} f : sProp 𝕄) = ((c : Thread nD τ).loc cc0_scratch0) ↦{fullShare} f := by
  simp only [Memref.view_whole, View.set_whole]
theorem scr1_eq (c : Dev nD) (f : Buf (Elt F) ((c : Thread nD τ).loc cc0_scratch1)) :
    (scr1.view.loc (c : Thread nD τ) ↦[scr1.view.set]{fullShare} f : sProp 𝕄) = ((c : Thread nD τ).loc cc0_scratch1) ↦{fullShare} f := by
  simp only [Memref.view_whole, View.set_whole]

/-! ## The body obligation, at a generic point -/

/-- After point `n` (before point `n + 1`). -/
theorem PhiS_succ (c : Dev nD) (n : ℕ) :
    PhiS m c (n + 1) = iprop((owns (c : Thread nD τ) scr0 fullShare (projV m c)
      ∗ (∃ g, ⌜Filled m c (n + 1) (scr1.view.read (Elt F) g)⌝ ∗ (scr1.view.loc (c : Thread nD τ) ↦[scr1.view.set]{fullShare} g)))
      ∗ (∃ r, prngReg c r)) := rfl

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: each input's buffer as it was, the output's as the library says for a window idle until the
    last point. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t)

set_option maxHeartbeats 4000000 in
/-- The body at any point, by the three cases of the two conditionals. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = PhiS m c (t.val + 1) from rfl, show (dats m 0 c).Φ t.castSucc = PhiS m c t.val from rfl,
    after0_0, after0_1, after0_2, after0_3, after0_4, after0_5, PhiS_succ]
  have hN : t.val < 64 := lt_of_lt_of_eq t.isLt N64
  by_cases h0 : t.val = 0
  · -- the first point
    have hc1 : condFirst (grid0.coords t) = 1#1 := (condFirst_iff t).mpr h0
    have hc2 : ¬ k0_cond2 (grid0.coords t) = 1#1 := fun h => by have := (condLast_iff t).mp h; omega
    have hfill := filled_zero m c
    rw [Dat.leavesExact_idle _ 6 t (idle_out t (by omega)) (noflush_out t (by omega))]
    rw [show PhiS m c t.val = ΦA spec0 c from by rw [h0]; rfl]
    have ht : t = tFirst := Fin.ext h0
    subst ht
    unfold ΦA; rw [scopedRest0_eq]
    iintro ⟨⟨⟨⟨%g8, HS0⟩, ⟨%g9, HS1⟩⟩, Hg⟩, Ho, ⟨%d0, H0⟩, ⟨%d1, H1⟩, ⟨%d2, H2⟩, ⟨%d3, H3⟩, ⟨%d4, H4⟩, ⟨%d5, H5⟩, H6⟩
    iapply (run_first c (grid0.coords tFirst) _ _ _ _ _ _ _ _ _ _ _ _ _ _ scr0 (Memref.isWhole_whole _) scr1 (Memref.isWhole_whole _) hc1 hc2
      (iblk m c 0 tFirst) (iblk m c 1 tFirst) (iblk m c 2 tFirst) (iblk m c 3 tFirst) g8 g9 _)
    isplitl [H0]; · iexact H0
    isplitl [H1]; · iexact H1
    isplitl [H2]; · iexact H2
    isplitl [H3]; · iexact H3
    isplitl [HS0]; · rw [scr0_eq]; iexact HS0
    isplitl [HS1]; · rw [scr1_eq]; iexact HS1
    iintro ⟨H0, H1, H2, H3, HS0, HS1⟩
    isplitl [HS0 HS1 Hg]
    · isplitl [HS0 HS1]
      · isplitl [HS0]; · iexact HS0
        iexists _; isplitr
        swap; · iexact HS1
        ipureintro
        exact filled_step m c tFirst g9 (hfill _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · obtain ⟨n, hn⟩ := Nat.exists_eq_succ_of_ne_zero h0
    have hc1 : ¬ condFirst (grid0.coords t) = 1#1 := fun h => h0 ((condFirst_iff t).mp h)
    rw [show PhiS m c t.val = PhiS m c (n + 1) from by rw [hn], PhiS_succ]
    by_cases h63 : t.val = 63
    · -- the last point
      have hc2 : k0_cond2 (grid0.coords t) = 1#1 := (condLast_iff t).mpr h63
      rw [show (dats m 0 c).leavesExact 6 t = owns (c : Thread nD τ) (st0_6 t) fullShare ((dats m 0 c).after 6 t) from by
        unfold Dat.leavesExact; rw [live_out t h63], after0_6]
      have ht : t = tLast := Fin.ext h63
      subst ht
      iintro ⟨⟨⟨HS0, ⟨%g9, %hfill, HS1⟩⟩, Hg⟩, Ho, ⟨%d0, H0⟩, ⟨%d1, H1⟩, ⟨%d2, H2⟩, ⟨%d3, H3⟩, ⟨%d4, H4⟩, ⟨%d5, H5⟩, ⟨%d6, H6⟩⟩
      have hstep := filled_step m c tLast g9 (by rw [show tLast.val = n + 1 from hn]; exact hfill)
      have hX := filled_all m c _ hstep
      iapply (run_last c (grid0.coords tLast) _ _ _ _ _ _ _ _ _ _ _ _ _ _ scr0 (Memref.isWhole_whole _) scr1 (Memref.isWhole_whole _) hc1 hc2
        (iblk m c 1 tLast) (projV m c) (iblk m c 4 tLast) (iblk m c 5 tLast) g9 _)
      isplitl [H1]; · iexact H1
      isplitl [HS0]; · iexact HS0
      isplitl [HS1]; · iexact HS1
      isplitl [H4]; · iexact H4
      isplitl [H5]; · iexact H5
      isplitl [H6]; · iexists _; iexact H6
      iintro ⟨H1, HS0, HS1, H4, H5, H6⟩
      rw [hX]
      isplitl [HS0 HS1 Hg]
      · isplitl [HS0 HS1]
        · isplitl [HS0]; · iexact HS0
          iexists _; isplitr
          swap; · iexact HS1
          ipureintro
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · -- a middle point
      have hc2 : ¬ k0_cond2 (grid0.coords t) = 1#1 := fun h => h63 ((condLast_iff t).mp h)
      rw [Dat.leavesExact_idle _ 6 t (idle_out t h63) (noflush_out t h63)]
      iintro ⟨⟨⟨HS0, ⟨%g9, %hfill, HS1⟩⟩, Hg⟩, Ho, ⟨%d0, H0⟩, ⟨%d1, H1⟩, ⟨%d2, H2⟩, ⟨%d3, H3⟩, ⟨%d4, H4⟩, ⟨%d5, H5⟩, H6⟩
      have hstep := filled_step m c t g9 (by rw [hn]; exact hfill)
      iapply (run_mid c (grid0.coords t) _ _ _ _ _ _ _ _ _ _ _ _ _ _ scr0 (Memref.isWhole_whole _) scr1 (Memref.isWhole_whole _) hc1 hc2
        (iblk m c 1 t) (projV m c) g9 _)
      isplitl [H1]; · iexact H1
      isplitl [HS0]; · iexact HS0
      isplitl [HS1]; · iexact HS1
      iintro ⟨H1, HS0, HS1⟩
      isplitl [HS0 HS1 Hg]
      · isplitl [HS0 HS1]
        · isplitl [HS0]; · iexact HS0
          iexists _; isplitr
          swap; · iexact HS1
          ipureintro
          exact hstep
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : ΦA spec0 c ⊢ (dats m 0 c).Φ 0 := by
  show ΦA spec0 c ⊢ PhiS m c 0
  exact .rfl

/-- After the last point the invariant gives the class's back: what the scratch buffers hold is forgotten. -/
theorem hout (c : Dev nD) : (dats m 0 c).Φ (Fin.last cfg0.N) ⊢ ΦA spec0 c := by
  rw [show (dats m 0 c).Φ (Fin.last cfg0.N) = PhiS m c (63 + 1) from rfl, PhiS_succ]
  unfold ΦA owns; rw [scopedRest0_eq]
  iintro ⟨⟨⟨%f8, -, HS0⟩, ⟨%g9, -, HS1⟩⟩, Hg⟩
  isplitl [HS0 HS1]
  · isplitl [HS0]
    · iexists f8; rw [← scr0_eq]; iexact HS0
    iexists g9; rw [← scr1_eq]; iexact HS1
  iexact Hg

/-! ## The run, the frame and the result array -/

-- the launch theorem's implicit arguments are found by unifying its conclusion with this one, which takes unfolding
-- plain definitions in a metavariable's type
set_option backward.isDefEq.respectTransparency.types false in
/-- Every weakly fair execution of @main terminates, and every final state has each array of the pipeline at what the
    library computes from the proof data and every other unscoped buffer at what the host line after the region
    leaves there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, at any `F`: the program terminates without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The output array after the run: its one block is the whole array, written back once, after the last point, so the
    array is what the last point left in the staging buffer. -/
theorem arr_out (c : Dev nD) : (dats m 0 c).arrAt 6 cfg0.N = outV m c := by
  rw [show cfg0.N = tLast.val + 1 from rfl, (dats m 0 c).arrAt_succ 6 tLast, if_pos ((flush0_6 tLast).mpr rfl)]
  have hz : (fun a => (win0_6.index tLast) a * main_v3.ty.shape.size a) = fun _ => 0 := funext fun a => by fin_cases a <;> decide
  refine (Memref.write_access_unit_zero_univ (Elt F) main_v3 hz _ _ _).trans ?_
  exact after0_6 m c tLast

end Cert.KernelIdeal.Body

end
-- ==== Proof.Spec.lean ====
/-
  The mathematics of the claim, free of both programs.

  Over coordinates (a row `n` of the 16384 simplices, a feature `o` of 16, an input channel `k` of 128):
    proj n o = (Σ_k ZH n k · W o k) + b o                  the linear projection
    conv n o = Σ_j L n j · proj j o                         the dense convolution with the Laplacian
    mean o   = (Σ_n Z n o) / N                              the batch mean over the simplices, N the literal 16384
    cen n o  = Z n o − mean o
    var o    = (Σ_n cen n o · cen n o) / N                  the (biased) batch variance
  and the result at row `n` is the maximum over the features `o`, from −∞, of
    max (γ o · normalised n o + β o) 0
  where the kernel normalises by a PRODUCT with the reciprocal square root, `cen n o · rsqrt (var o + ε)`, and the
  reference by a QUOTIENT by the square root, `cen n o / sqrt (var o + ε)`.

  The two agree on the extended reals without any finiteness assumption: a square `c · c` is never negative there
  (`⊥ · ⊥ = ⊤`), so the sum of squares is ≥ 0, its quotient by the positive real N is ≥ 0, and `var o + ε` is a
  positive real or `⊤`. At a positive real `v`, `x / √v = x · (√v)⁻¹ = x · rsqrt v`; at `⊤` both sides are `x · 0 = 0`.
-/
import Idealize.ShloMosaic.PureOps.Ideal
import Idealize.ShloMosaic.PureOps.Ideal.Laws

noncomputable section

namespace Cert.Spec

open Idealize.ShloMosaic

/-- The literal `16384.0` (an exact power of two), the literal `ε` (the f32 nearest to 1e-5), the zero and `−∞`,
    each as the extended real its f32 word denotes. The same words stand on both sides. -/
abbrev cN : EReal := Ideal.ofBits .f32 0x46800000#32
abbrev cEps : EReal := Ideal.ofBits .f32 0x3727C5AC#32
abbrev cZero : EReal := Ideal.ofBits .f32 0x00000000#32
abbrev cNegInf : EReal := Ideal.ofBits .f32 0xFF800000#32

/-- The word `0x46800000` is 2¹⁴. -/
theorem cN_eq : cN = ((16384 : ℝ) : EReal) := by
  simp [Ideal.ofBits, Ideal.ieee, -EReal.coe_mul]; norm_num

theorem cN_pos : 0 < cN := by
  rw [cN_eq]; exact_mod_cast (by norm_num : (0 : ℝ) < 16384)

/-- The word `0x3727C5AC` is a positive real. -/
theorem cEps_pos : 0 < cEps := by
  simp [Ideal.ofBits, Ideal.ieee, -EReal.coe_mul]

/-- … and finite. -/
theorem cEps_ne_top : cEps ≠ ⊤ := by
  simp [Ideal.ofBits, Ideal.ieee, -EReal.coe_mul]

section Proj

variable (ZH : Fin 16384 → Fin 128 → EReal) (L : Fin 16384 → Fin 16384 → EReal) (W : Fin 16 → Fin 128 → EReal)
  (b : Fin 16 → EReal)

/-- The projection `Z_H · Wᵀ + b` at row `n`, feature `o`. -/
def proj (n : Fin 16384) (o : Fin 16) : EReal := (∑ k : Fin 128, ZH n k * W o k) + b o

/-- The convolution `L · proj` at row `n`, feature `o`. -/
def conv (n : Fin 16384) (o : Fin 16) : EReal := ∑ j : Fin 16384, L n j * proj ZH W b j o

end Proj

section Norm

variable (Z : Fin 16384 → Fin 16 → EReal) (γ β : Fin 16 → EReal)

/-- The batch mean of feature `o`. -/
def mean (o : Fin 16) : EReal := Ideal.div (∑ n : Fin 16384, Z n o) cN

/-- The centred value. -/
def cen (n : Fin 16384) (o : Fin 16) : EReal := Z n o - mean Z o

/-- The batch variance of feature `o`. -/
def var (o : Fin 16) : EReal := Ideal.div (∑ n : Fin 16384, cen Z n o * cen Z n o) cN

/-- The activation as the kernel computes it: the product with the reciprocal square root. -/
def actK (n : Fin 16384) (o : Fin 16) : EReal :=
  max (γ o * (cen Z n o * Ideal.rsqrt (var Z o + cEps)) + β o) cZero

/-- The activation as the reference computes it: the quotient by the square root. -/
def actR (n : Fin 16384) (o : Fin 16) : EReal :=
  max (γ o * Ideal.div (cen Z n o) (Ideal.sqrt (var Z o + cEps)) + β o) cZero

/-- The result at row `n`: the maximum over the features, from `−∞`. -/
def outK (n : Fin 16384) : EReal := (Finset.univ : Finset (Fin 16)).fold max cNegInf (fun o => actK Z γ β n o)
def outR (n : Fin 16384) : EReal := (Finset.univ : Finset (Fin 16)).fold max cNegInf (fun o => actR Z γ β n o)

/-- A square is never negative on the extended reals. -/
theorem mul_self_nonneg (x : EReal) : 0 ≤ x * x := by
  induction x using EReal.rec with
  | bot => rw [EReal.bot_mul_bot]; exact le_top
  | coe r => rw [← EReal.coe_mul]; exact_mod_cast _root_.mul_self_nonneg r
  | top => rw [EReal.top_mul_top]; exact le_top

/-- The variance is never negative. -/
theorem var_nonneg (o : Fin 16) : 0 ≤ var Z o := by
  unfold var
  rw [cN_eq, Ideal.div_coe (by norm_num : (16384 : ℝ) ≠ 0)]
  refine EReal.mul_nonneg (Finset.sum_nonneg fun n _ => mul_self_nonneg _) ?_
  exact_mod_cast (by norm_num : (0 : ℝ) ≤ 1 / 16384)

/-- So the radicand is positive. -/
theorem radicand_pos (o : Fin 16) : 0 < var Z o + cEps :=
  Right.add_pos_of_nonneg_of_pos (var_nonneg Z o) cEps_pos

/-- THE LAW: at a positive radicand (a positive real or `⊤`) the quotient by the square root is the product with the
    reciprocal square root. -/
theorem div_sqrt_eq_mul_rsqrt (x v : EReal) (hv : 0 < v) : Ideal.div x (Ideal.sqrt v) = x * Ideal.rsqrt v := by
  induction v using EReal.rec with
  | bot => exact absurd hv (not_lt_bot)
  | top => rw [Ideal.sqrt_top, Ideal.rsqrt_top, Ideal.div, if_neg EReal.top_ne_zero, EReal.inv_top]
  | coe r =>
    have hr : 0 < r := by exact_mod_cast hv
    have hs : Real.sqrt r ≠ 0 := (Real.sqrt_pos.mpr hr).ne'
    rw [Ideal.sqrt_coe, Ideal.rsqrt_coe, if_neg (not_lt.mpr hr.le), if_neg (not_lt.mpr hr.le), if_neg hr.ne',
      Ideal.div, if_neg (by exact_mod_cast hs), EReal.coe_inv]

theorem actK_eq_actR (n : Fin 16384) (o : Fin 16) : actK Z γ β n o = actR Z γ β n o := by
  unfold actK actR
  rw [div_sqrt_eq_mul_rsqrt _ _ (radicand_pos Z o)]

theorem outK_eq_outR : outK Z γ β = outR Z γ β := by
  funext n
  unfold outK outR
  simp only [actK_eq_actR]

end Norm

end Cert.Spec

end
-- ==== Proof.KernelPayload.lean ====
/-
  The idealized kernel's three stored values read at an index, at the ideal (extended-real) values.

  The first stored value is the linear projection: a row of the input against a row of the weight matrix (the
  matrix product with the transposed weights) plus the bias. The second is a block of the dense convolution,
  stored transposed: the feature `o` of row `r` is the sum over all simplices `j` of the Laplacian block's entry
  times the projected value. The third is the batch normalisation over the simplices followed by the activation
  and the maximum over the sixteen features.
-/
import proofs.«145461_g64123861729553_cont_9to1_m_268_10_alg».proof.Proof.Gen.KernelIdeal.Skeleton
import proofs.«145461_g64123861729553_cont_9to1_m_268_10_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Idealize.ShloMosaic Idealize.ShloMosaic.ValueIdx Cert.KernelIdeal Cert.KernelIdeal.Gen

variable [Cert.KernelIdeal.Facts]

/-! ## The convolution block: one matrix product, transposed -/

/-- In the convolution's product the left operand's row is the result's row … -/
theorem lhs_conv_0 (j : S256x16.Idx) (k : dot_S256x16384_S16384x16_S256x16_1_0_0_1_n_n.contr.Idx) :
    (dot_S256x16384_S16384x16_S256x16_1_0_0_1_n_n.lhsIdx j k 0).val = (j 0).val := by
  simp [DotDims.lhsIdx, dot_S256x16384_S16384x16_S256x16_1_0_0_1_n_n]
  rfl

/-- … and its column the contraction's coordinate; -/
theorem lhs_conv_1 (j : S256x16.Idx) (k : dot_S256x16384_S16384x16_S256x16_1_0_0_1_n_n.contr.Idx) :
    (dot_S256x16384_S16384x16_S256x16_1_0_0_1_n_n.lhsIdx j k 1).val = (k ⟨0, by decide⟩).val :=
  DotDims.lhsIdx_val_of_single _ rfl j k

/-- the right operand's row is the contraction's coordinate … -/
theorem rhs_conv_0 (j : S256x16.Idx) (k : dot_S256x16384_S16384x16_S256x16_1_0_0_1_n_n.contr.Idx) :
    (dot_S256x16384_S16384x16_S256x16_1_0_0_1_n_n.rhsIdx j k 0).val = (k ⟨0, by decide⟩).val :=
  DotDims.rhsIdx_val_of_single _ rfl j k

/-- … and its column the result's column. -/
theorem rhs_conv_1 (j : S256x16.Idx) (k : dot_S256x16384_S16384x16_S256x16_1_0_0_1_n_n.contr.Idx) :
    (dot_S256x16384_S16384x16_S256x16_1_0_0_1_n_n.rhsIdx j k 1).val = (j 1).val := by
  simp [DotDims.rhsIdx, dot_S256x16384_S16384x16_S256x16_1_0_0_1_n_n]
  rfl

/-- The operands' indices in the convolution's product, at result `(r, o)` and contraction coordinate `c`. -/
theorem lhs_conv (r : Fin 256) (o : Fin 16) (c : Fin 16384) :
    dot_S256x16384_S16384x16_S256x16_1_0_0_1_n_n.lhsIdx (ix2 r o)
      ((contrEquiv1 dot_S256x16384_S16384x16_S256x16_1_0_0_1_n_n 16384 rfl rfl).symm c) = ix2 r c := by
  funext a
  refine Fin.ext ?_
  match a with
  | ⟨0, _⟩ => exact lhs_conv_0 _ _
  | ⟨1, _⟩ => exact (lhs_conv_1 _ _).trans (contrEquiv1_symm_val _ 16384 rfl rfl c)

theorem rhs_conv (r : Fin 256) (o : Fin 16) (c : Fin 16384) :
    dot_S256x16384_S16384x16_S256x16_1_0_0_1_n_n.rhsIdx (ix2 r o)
      ((contrEquiv1 dot_S256x16384_S16384x16_S256x16_1_0_0_1_n_n 16384 rfl rfl).symm c) = ix2 c o := by
  funext a
  refine Fin.ext ?_
  match a with
  | ⟨0, _⟩ => exact (rhs_conv_0 _ _).trans (contrEquiv1_symm_val _ 16384 rfl rfl c)
  | ⟨1, _⟩ => exact rhs_conv_1 _ _

/-- The second stored value at feature `o`, row `r` of the block: the sum over the simplices of the block's entry
    times the projected value. -/
theorem pay2_apply (x1 : Vec Ideal S256x16384 .f32) (z : Vec Ideal S16384x16 .f32) (o : Fin 16) (r : Fin 256) :
    k0_pay2 (F := Ideal) x1 z (ix2 o r) = ∑ j : Fin 16384, x1 (ix2 r j) * z (ix2 j o) := by
  unfold k0_pay2
  simp only [shapeCast_self]
  rw [transpose_ix2_apply]
  simp only [matmul]
  rw [Ideal.matmul_constant_zero_apply,
    ← Equiv.sum_comp (contrEquiv1 dot_S256x16384_S16384x16_S256x16_1_0_0_1_n_n 16384 rfl rfl).symm]
  refine Finset.sum_congr rfl fun c _ => ?_
  rw [lhs_conv, rhs_conv]

/-! ## The projection: a product with the transposed weights, plus the bias row -/

/-- In the projection's product the left operand's row is the result's row … -/
theorem lhs_proj_0 (j : S16384x16.Idx) (k : dot_S16384x128_S128x16_S16384x16_1_0_0_1_n_n.contr.Idx) :
    (dot_S16384x128_S128x16_S16384x16_1_0_0_1_n_n.lhsIdx j k 0).val = (j 0).val := by
  simp [DotDims.lhsIdx, dot_S16384x128_S128x16_S16384x16_1_0_0_1_n_n]
  rfl

/-- … and its column the contraction's coordinate; -/
theorem lhs_proj_1 (j : S16384x16.Idx) (k : dot_S16384x128_S128x16_S16384x16_1_0_0_1_n_n.contr.Idx) :
    (dot_S16384x128_S128x16_S16384x16_1_0_0_1_n_n.lhsIdx j k 1).val = (k ⟨0, by decide⟩).val :=
  DotDims.lhsIdx_val_of_single _ rfl j k

/-- the right operand's row is the contraction's coordinate … -/
theorem rhs_proj_0 (j : S16384x16.Idx) (k : dot_S16384x128_S128x16_S16384x16_1_0_0_1_n_n.contr.Idx) :
    (dot_S16384x128_S128x16_S16384x16_1_0_0_1_n_n.rhsIdx j k 0).val = (k ⟨0, by decide⟩).val :=
  DotDims.rhsIdx_val_of_single _ rfl j k

/-- … and its column the result's column. -/
theorem rhs_proj_1 (j : S16384x16.Idx) (k : dot_S16384x128_S128x16_S16384x16_1_0_0_1_n_n.contr.Idx) :
    (dot_S16384x128_S128x16_S16384x16_1_0_0_1_n_n.rhsIdx j k 1).val = (j 1).val := by
  simp [DotDims.rhsIdx, dot_S16384x128_S128x16_S16384x16_1_0_0_1_n_n]
  rfl

/-- The operands' indices in the projection's product, at result `(n, o)` and contraction coordinate `c`. -/
theorem lhs_proj (n : Fin 16384) (o : Fin 16) (c : Fin 128) :
    dot_S16384x128_S128x16_S16384x16_1_0_0_1_n_n.lhsIdx (ix2 n o)
      ((contrEquiv1 dot_S16384x128_S128x16_S16384x16_1_0_0_1_n_n 128 rfl rfl).symm c) = ix2 n c := by
  funext a
  refine Fin.ext ?_
  match a with
  | ⟨0, _⟩ => exact lhs_proj_0 _ _
  | ⟨1, _⟩ => exact (lhs_proj_1 _ _).trans (contrEquiv1_symm_val _ 128 rfl rfl c)

theorem rhs_proj (n : Fin 16384) (o : Fin 16) (c : Fin 128) :
    dot_S16384x128_S128x16_S16384x16_1_0_0_1_n_n.rhsIdx (ix2 n o)
      ((contrEquiv1 dot_S16384x128_S128x16_S16384x16_1_0_0_1_n_n 128 rfl rfl).symm c) = ix2 c o := by
  funext a
  refine Fin.ext ?_
  match a with
  | ⟨0, _⟩ => exact (rhs_proj_0 _ _).trans (contrEquiv1_symm_val _ 128 rfl rfl c)
  | ⟨1, _⟩ => exact rhs_proj_1 _ _

/-- The first stored value at row `n`, feature `o`: the row of the input against the row `o` of the weights, plus
    the bias at `o`. -/
theorem pay1_apply (x0 : Vec Ideal S16384x128 .f32) (x2 : Vec Ideal S16x128 .f32) (x3 : Vec Ideal S1x16 .f32)
    (n : Fin 16384) (o : Fin 16) :
    k0_pay1 (F := Ideal) x0 x2 x3 (ix2 n o)
      = (∑ k : Fin 128, x0 (ix2 n k) * x2 (ix2 o k)) + x3 (ix2 (0 : Fin 1) o) := by
  unfold k0_pay1
  simp only [shapeCast_self]
  rw [addf_apply, broadcastTo_1b_ab_apply]
  simp only [matmul]
  rw [Ideal.matmul_constant_zero_apply,
    ← Equiv.sum_comp (contrEquiv1 dot_S16384x128_S128x16_S16384x16_1_0_0_1_n_n 128 rfl rfl).symm]
  congr 1
  refine Finset.sum_congr rfl fun c _ => ?_
  rw [lhs_proj, rhs_proj, transpose_ix2_apply]

/-! ## The normalisation, the activation and the maximum over the features

The layout operations of this part, each read at an index given by its coordinates. -/

/-- A sum along the lanes of a `[16, 16384]` array, at feature `o`: the sum over the simplices. -/
theorem laneSum_apply (v : FVec Ideal S16x16384 .f32) (h : S16x16384.Reduces [1] S16) (o : Fin 16) :
    multiReduction (F := Ideal) .add [1] S16 v 0x00000000#32 h (.inl rfl) rfl (ix1 o)
      = ∑ n : Fin 16384, v (ix2 o n) := by
  refine (Ideal.multiReduction_add_single v 0x00000000#32 h (.inl rfl) rfl (ix1 o)).trans ?_
  show ∑ k : Fin 16384, v (h.lift (ix1 o) k) = _
  refine Finset.sum_congr rfl fun k _ => congrArg v ?_
  funext a
  refine Fin.ext ?_
  match a with
  | ⟨0, _⟩ => rfl
  | ⟨1, _⟩ => rfl

/-- A maximum down the sixteen features of a `[16, 16384]` array, at simplex `n`: the fold of `max` from `−∞`. -/
theorem featureMax_apply (v : FVec Ideal S16x16384 .f32) (h : S16x16384.Reduces [0] S16384) (n : Fin 16384) :
    multiReduction (F := Ideal) .maximumf [0] S16384 v 0xFF800000#32 h (.inl rfl) rfl (ix1 n)
      = (Finset.univ : Finset (Fin 16)).fold max (Ideal.ofBits .f32 0xFF800000#32) (fun o => v (ix2 o n)) := by
  refine (Ideal.multiReduction_maximumf_single v 0xFF800000#32 h (.inl rfl) rfl (ix1 n)).trans ?_
  show (Finset.univ : Finset (Fin 16)).fold max (Ideal.ofBits .f32 0xFF800000#32)
      (fun o => v (h.lift (ix1 n) o)) = _
  refine congrArg (fun f => (Finset.univ : Finset (Fin 16)).fold max (Ideal.ofBits .f32 0xFF800000#32) f) ?_
  funext o
  refine congrArg v ?_
  funext a
  refine Fin.ext ?_
  match a with
  | ⟨0, _⟩ => rfl
  | ⟨1, _⟩ => rfl

/-- A vector of sixteen cast to a column reads, at `(o, 0)`, the vector at `o`. -/
theorem colCast_apply (v : FVec Ideal S16 .f32) (h : S16.ShapeCasts S16x1) (o : Fin 16) (u : Fin 1) :
    shapeCast S16x1 v h (ix2 o u) = v (ix1 o) :=
  shapeCast_apply v h _ _ (by
    have hu : u.val = 0 := by omega
    rw [Shape.rowMajor_val_one, Shape.rowMajor_val_two]
    show o.val = o.val * 1 + u.val
    rw [hu, Nat.mul_one, Nat.add_zero])

/-- A column broadcast along the lanes reads, at `(o, n)`, the column at `o`. -/
theorem colBroadcast_apply (v : FVec Ideal S16x1 .f32) (h : S16x1.Broadcasts S16x16384) (o : Fin 16) (n : Fin 16384) :
    broadcastTo S16x16384 v h (ix2 o n) = v (ix2 o (0 : Fin 1)) := by
  refine broadcastTo_apply v h (ix2 o n) (ix2 o (0 : Fin 1)) fun a => ?_
  match a with
  | ⟨0, _⟩ => rfl
  | ⟨1, _⟩ => rfl

/-- A reciprocal square root at an index is the reciprocal square root of the element. -/
theorem rsqrt_apply {s : Shape} {φ : FTy} (v : FVec Ideal s φ) (i : s.Idx) : rsqrt v i = Ideal.rsqrt (v i) := rfl

/-! The stages of the third stored value, each as the kernel computes it from the block `zc` (feature `o` in the
rows, simplex `n` in the lanes) and read at an index against the specification's function of `Z n o = zc (o, n)`. -/

/-- The column of batch means: the lane sums divided by the literal `16384`. -/
def meanCol (zc : Vec Ideal S16x16384 .f32) : FVec Ideal S16x1 .f32 :=
  divf (shapeCast S16x1 (multiReduction (F := Ideal) .add [1] S16 zc 0x00000000#32 Gen.reduces_S16x16384_S16 (.inl rfl) rfl)
      Gen.shapeCasts_S16_S16x1)
    (broadcast S16x1 (Scalar.ofBits .f32 0x46800000#32))

theorem meanCol_apply (zc : Vec Ideal S16x16384 .f32) (o : Fin 16) :
    meanCol zc (ix2 o (0 : Fin 1)) = Cert.Spec.mean (fun n o => zc (ix2 o n)) o := by
  unfold meanCol Cert.Spec.mean
  rw [divf_apply, colCast_apply, laneSum_apply, broadcast_apply]
  rfl

/-- The centred block: each entry minus its feature's mean. -/
def cenV (zc : Vec Ideal S16x16384 .f32) : FVec Ideal S16x16384 .f32 :=
  subf zc (broadcastTo S16x16384 (meanCol zc) Gen.broadcasts_S16x1_S16x16384)

theorem cenV_apply (zc : Vec Ideal S16x16384 .f32) (o : Fin 16) (n : Fin 16384) :
    cenV zc (ix2 o n) = Cert.Spec.cen (fun n o => zc (ix2 o n)) n o := by
  unfold cenV Cert.Spec.cen
  rw [subf_apply, colBroadcast_apply, meanCol_apply]

/-- The column of batch variances: the lane sums of the centred squares divided by the literal `16384`. -/
def varCol (zc : Vec Ideal S16x16384 .f32) : FVec Ideal S16x1 .f32 :=
  divf (shapeCast S16x1 (multiReduction (F := Ideal) .add [1] S16 (mulf (cenV zc) (cenV zc)) 0x00000000#32
        Gen.reduces_S16x16384_S16 (.inl rfl) rfl) Gen.shapeCasts_S16_S16x1)
    (broadcast S16x1 (Scalar.ofBits .f32 0x46800000#32))

theorem varCol_apply (zc : Vec Ideal S16x16384 .f32) (o : Fin 16) :
    varCol zc (ix2 o (0 : Fin 1)) = Cert.Spec.var (fun n o => zc (ix2 o n)) o := by
  unfold varCol Cert.Spec.var
  rw [divf_apply, colCast_apply, laneSum_apply, broadcast_apply]
  simp only [mulf_apply, cenV_apply]
  rfl

/-- The activation block: scale times the centred value times the reciprocal square root of the variance plus
    `ε`, plus the shift, cut below at zero. -/
def actV (zc : Vec Ideal S16x16384 .f32) (g be : Vec Ideal S16x1 .f32) : FVec Ideal S16x16384 .f32 :=
  maximumf
    (addf
      (mulf (broadcastTo S16x16384 (shapeCast S16x1 g Gen.shapeCasts_S16x1_S16x1) Gen.broadcasts_S16x1_S16x16384)
        (mulf (cenV zc)
          (broadcastTo S16x16384 (rsqrt (addf (varCol zc) (broadcast S16x1 (Scalar.ofBits .f32 0x3727C5AC#32))))
            Gen.broadcasts_S16x1_S16x16384)))
      (broadcastTo S16x16384 (shapeCast S16x1 be Gen.shapeCasts_S16x1_S16x1) Gen.broadcasts_S16x1_S16x16384))
    (broadcast S16x16384 (Scalar.ofBits .f32 0x00000000#32))

theorem actV_apply (zc : Vec Ideal S16x16384 .f32) (g be : Vec Ideal S16x1 .f32) (o : Fin 16) (n : Fin 16384) :
    actV zc g be (ix2 o n)
      = Cert.Spec.actK (fun n o => zc (ix2 o n)) (fun o => g (ix2 o (0 : Fin 1))) (fun o => be (ix2 o (0 : Fin 1))) n o := by
  unfold actV Cert.Spec.actK
  simp only [shapeCast_self]
  rw [maximumf_apply, addf_apply, mulf_apply, mulf_apply, colBroadcast_apply, colBroadcast_apply, colBroadcast_apply,
    cenV_apply, broadcast_apply, rsqrt_apply, addf_apply, varCol_apply, broadcast_apply]
  rfl

/-- The third stored value is the maximum down the features of the activation block, as one row. -/
theorem pay3_eq (zc : Vec Ideal S16x16384 .f32) (g be : Vec Ideal S16x1 .f32) :
    k0_pay3 (F := Ideal) zc g be
      = shapeCast S1x16384 (multiReduction (F := Ideal) .maximumf [0] S16384 (actV zc g be) 0xFF800000#32
          Gen.reduces_S16x16384_S16384 (.inl rfl) rfl) Gen.shapeCasts_S16384_S1x16384 := rfl

/-- The third stored value at simplex `n`: the specification's result there. -/
theorem pay3_apply (zc : Vec Ideal S16x16384 .f32) (g be : Vec Ideal S16x1 .f32) (n : Fin 16384) :
    k0_pay3 (F := Ideal) zc g be (ix2 (0 : Fin 1) n)
      = Cert.Spec.outK (fun n o => zc (ix2 o n)) (fun o => g (ix2 o (0 : Fin 1))) (fun o => be (ix2 o (0 : Fin 1))) n := by
  rw [pay3_eq, shapeCast_a_1a_apply, featureMax_apply]
  unfold Cert.Spec.outK
  simp only [actV_apply]

end Cert.KernelIdeal.PayloadValue

end
-- ==== Proof.KernelGlue.lean ====
/-
  Which element of which argument array each element of a window's block is, at every grid point, and which
  element of the pipeline's output row the final column holds. No arithmetic is involved: every statement holds for
  any float values.

  The input matrix and the weights are staged whole; the Laplacian is staged in blocks of 256 rows, block `t`
  holding rows `256 t … 256 t + 255`; the bias is staged as one row and the scale and shift as columns, each a
  reshape of a vector of sixteen; the result row of 16384 is reshaped to a column after the pipeline.
-/
import proofs.«145461_g64123861729553_cont_9to1_m_268_10_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Glue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-! ## The windows staged whole -/

/-- The input matrix's window sits at block index zero at every point. -/
theorem offset_input (t : Fin cfg0.N) :
    (fun a => win0_0.index t a * main_arg0.ty.shape.size a) = fun _ => 0 := by
  funext a
  have h : ∀ t : Fin cfg0.N, win0_0.index t (0 : Fin 2) = 0 ∧ win0_0.index t (1 : Fin 2) = 0 :=
    (by decide +kernel : ∀ t : Fin grid0.N, _)
  match a with
  | ⟨0, _⟩ => show win0_0.index t (0 : Fin 2) * _ = 0; rw [(h t).1, Nat.zero_mul]
  | ⟨1, _⟩ => show win0_0.index t (1 : Fin 2) * _ = 0; rw [(h t).2, Nat.zero_mul]

/-- The input matrix's block at every point is the whole argument array. -/
theorem block_input (c : Dev nD) (t : Fin cfg0.N) : iblk m c 0 t = m ((c : Thread nD τ).loc main_arg0) := by
  unfold iblk
  refine (Memref.read_access_unit_zero (Elt F) main_arg0 (offset_input t) _ _).trans (V_main_arg0 m c)

/-- The weights' window sits at block index zero at every point. -/
theorem offset_weights (t : Fin cfg0.N) :
    (fun a => win0_2.index t a * main_arg2.ty.shape.size a) = fun _ => 0 := by
  funext a
  have h : ∀ t : Fin cfg0.N, win0_2.index t (0 : Fin 2) = 0 ∧ win0_2.index t (1 : Fin 2) = 0 :=
    (by decide +kernel : ∀ t : Fin grid0.N, _)
  match a with
  | ⟨0, _⟩ => show win0_2.index t (0 : Fin 2) * _ = 0; rw [(h t).1, Nat.zero_mul]
  | ⟨1, _⟩ => show win0_2.index t (1 : Fin 2) * _ = 0; rw [(h t).2, Nat.zero_mul]

/-- The weights' block at every point is the whole argument array. -/
theorem block_weights (c : Dev nD) (t : Fin cfg0.N) : iblk m c 2 t = m ((c : Thread nD τ).loc main_arg2) := by
  unfold iblk
  refine (Memref.read_access_unit_zero (Elt F) main_arg2 (offset_weights t) _ _).trans (V_main_arg2 m c)

/-! ## The Laplacian, staged in blocks of 256 rows -/

/-- The Laplacian's window at point `t` is row block `t`, column block zero. -/
theorem index_laplacian : ∀ t : Fin cfg0.N, win0_1.index t (0 : Fin 2) = t.val ∧ win0_1.index t (1 : Fin 2) = 0 :=
  (by decide +kernel : ∀ t : Fin grid0.N, _)

/-- Row `r` of the Laplacian's block at point `t` is row `256 t + r` of the argument array. -/
theorem block_laplacian (c : Dev nD) (t : Fin cfg0.N) (r : Fin 256) (j : Fin 16384) :
    iblk m c 1 t (ix2 r j)
      = m ((c : Thread nD τ).loc main_arg1)
          (ix2 ⟨256 * t.val + r.val, by have := t.isLt; have h : cfg0.N = 64 := N_0; omega⟩ j) := by
  unfold iblk
  obtain ⟨e0, e1⟩ := index_laplacian t
  show V m c main_arg1 (((cfg0.win 1).blk t).view.emb (ix2 r j)) = _
  rw [V_main_arg1]
  refine congrArg (m ((c : Thread nD τ).loc main_arg1)) ?_
  funext a
  refine Fin.ext ?_
  match a with
  | ⟨0, _⟩ => show win0_1.index t (0 : Fin 2) * 256 + 1 * r.val = 256 * t.val + r.val; omega
  | ⟨1, _⟩ => show win0_1.index t (1 : Fin 2) * 16384 + 1 * j.val = j.val; omega

/-! ## The bias, the scale and the shift: vectors of sixteen reshaped before the pipeline -/

/-- The bias row as the pipeline finds it: the bias vector cast to one row. -/
theorem entry_bias (c : Dev nD) (h : S16.ShapeCasts S1x16) :
    (V m c main_v0 : S1x16.Idx → Elt F .f32) = shapeCast S1x16 (m ((c : Thread nD τ).loc main_arg3)) h := by
  show StableHlo.after hostOps0 (fun b => m (c, b)) (Proc.devRef .tc main_v0) = _
  after_results
  rfl

/-- The scale column as the pipeline finds it: the scale vector cast to one column. -/
theorem entry_scale (c : Dev nD) (h : S16.ShapeCasts S16x1) :
    (V m c main_v1 : S16x1.Idx → Elt F .f32) = shapeCast S16x1 (m ((c : Thread nD τ).loc main_arg4)) h := by
  show StableHlo.after hostOps0 (fun b => m (c, b)) (Proc.devRef .tc main_v1) = _
  after_results
  rfl

/-- The shift column as the pipeline finds it: the shift vector cast to one column. -/
theorem entry_shift (c : Dev nD) (h : S16.ShapeCasts S16x1) :
    (V m c main_v2 : S16x1.Idx → Elt F .f32) = shapeCast S16x1 (m ((c : Thread nD τ).loc main_arg5)) h := by
  show StableHlo.after hostOps0 (fun b => m (c, b)) (Proc.devRef .tc main_v2) = _
  after_results
  rfl

/-- A vector cast to a column reads, at `(o, 0)`, the vector at `o`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- The bias row's, the scale column's and the shift column's windows sit at block index zero at every point. -/
theorem offset_bias (t : Fin cfg0.N) :
    (fun a => win0_3.index t a * main_v0.ty.shape.size a) = fun _ => 0 := by
  funext a
  have h : ∀ t : Fin cfg0.N, win0_3.index t (0 : Fin 2) = 0 ∧ win0_3.index t (1 : Fin 2) = 0 :=
    (by decide +kernel : ∀ t : Fin grid0.N, _)
  match a with
  | ⟨0, _⟩ => show win0_3.index t (0 : Fin 2) * _ = 0; rw [(h t).1, Nat.zero_mul]
  | ⟨1, _⟩ => show win0_3.index t (1 : Fin 2) * _ = 0; rw [(h t).2, Nat.zero_mul]

theorem offset_scale (t : Fin cfg0.N) :
    (fun a => win0_4.index t a * main_v1.ty.shape.size a) = fun _ => 0 := by
  funext a
  have h : ∀ t : Fin cfg0.N, win0_4.index t (0 : Fin 2) = 0 ∧ win0_4.index t (1 : Fin 2) = 0 :=
    (by decide +kernel : ∀ t : Fin grid0.N, _)
  match a with
  | ⟨0, _⟩ => show win0_4.index t (0 : Fin 2) * _ = 0; rw [(h t).1, Nat.zero_mul]
  | ⟨1, _⟩ => show win0_4.index t (1 : Fin 2) * _ = 0; rw [(h t).2, Nat.zero_mul]

theorem offset_shift (t : Fin cfg0.N) :
    (fun a => win0_5.index t a * main_v2.ty.shape.size a) = fun _ => 0 := by
  funext a
  have h : ∀ t : Fin cfg0.N, win0_5.index t (0 : Fin 2) = 0 ∧ win0_5.index t (1 : Fin 2) = 0 :=
    (by decide +kernel : ∀ t : Fin grid0.N, _)
  match a with
  | ⟨0, _⟩ => show win0_5.index t (0 : Fin 2) * _ = 0; rw [(h t).1, Nat.zero_mul]
  | ⟨1, _⟩ => show win0_5.index t (1 : Fin 2) * _ = 0; rw [(h t).2, Nat.zero_mul]

/-- The bias block at every point, at feature `o`: the bias vector at `o`. -/
theorem block_bias (c : Dev nD) (t : Fin cfg0.N) (o : Fin 16) :
    iblk m c 3 t (ix2 (0 : Fin 1) o) = m ((c : Thread nD τ).loc main_arg3) (ix1 o) := by
  have e : iblk m c 3 t = V m c main_v0 := by
    unfold iblk
    exact Memref.read_access_unit_zero (Elt F) main_v0 (offset_bias t) _ _
  refine (congrFun e _).trans ?_
  refine (congrFun (entry_bias m c Gen.shapeCasts_S16_S1x16) _).trans ?_
  exact shapeCast_a_1a_apply _ _ (0 : Fin 1) o

/-- The scale block at every point, at feature `o`: the scale vector at `o`. -/
theorem block_scale (c : Dev nD) (t : Fin cfg0.N) (o : Fin 16) :
    iblk m c 4 t (ix2 o (0 : Fin 1)) = m ((c : Thread nD τ).loc main_arg4) (ix1 o) := by
  have e : iblk m c 4 t = V m c main_v1 := by
    unfold iblk
    exact Memref.read_access_unit_zero (Elt F) main_v1 (offset_scale t) _ _
  refine (congrFun e _).trans ?_
  refine (congrFun (entry_scale m c Gen.shapeCasts_S16_S16x1) _).trans ?_
  exact shapeCast_a_a1_apply _ _ o (0 : Fin 1)

/-- The shift block at every point, at feature `o`: the shift vector at `o`. -/
theorem block_shift (c : Dev nD) (t : Fin cfg0.N) (o : Fin 16) :
    iblk m c 5 t (ix2 o (0 : Fin 1)) = m ((c : Thread nD τ).loc main_arg5) (ix1 o) := by
  have e : iblk m c 5 t = V m c main_v2 := by
    unfold iblk
    exact Memref.read_access_unit_zero (Elt F) main_v2 (offset_shift t) _ _
  refine (congrFun e _).trans ?_
  refine (congrFun (entry_shift m c Gen.shapeCasts_S16_S16x1) _).trans ?_
  exact shapeCast_a_a1_apply _ _ o (0 : Fin 1)

/-! ## The result: the pipeline's output row reshaped to a column after the pipeline -/

/-- A row cast to a column reads, at `(n, 0)`, the row at `(0, n)`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- The final column is the output window's array after the run, cast from a row to a column. -/
theorem result_column (dats : (p : Fin 1) → (c : Dev nD) → Dat τ (Elt F) Unit ℕ (UR sig nD τ) ℕ (cfgs p) c) (c : Dev nD)
    (h : S1x16384.ShapeCasts S16384x1) :
    (Pipeline.afterTail₀ cfgs dats 0 (V0 m) [hostOps1] c main_v4 : S16384x1.Idx → Elt F .f32)
      = shapeCast S16384x1 ((dats 0 c).arrAt 6 cfg0.N : S1x16384.Idx → Elt F .f32) h := by
  unfold Pipeline.afterTail₀
  show StableHlo.after hostOps1 _ (Proc.devRef .tc main_v4) = _
  after_results
  rw [Pipeline.withArrays_arr spec0 launch0.win.arr_inj c _ _ 6]
  rfl

/-- The final column at simplex `n` is the output window's array after the run at lane `n`. -/
theorem result_apply (dats : (p : Fin 1) → (c : Dev nD) → Dat τ (Elt F) Unit ℕ (UR sig nD τ) ℕ (cfgs p) c) (c : Dev nD)
    (n : Fin 16384) :
    Pipeline.afterTail₀ cfgs dats 0 (V0 m) [hostOps1] c main_v4 (ix2 n (0 : Fin 1))
      = (dats 0 c).arrAt 6 cfg0.N (ix2 (0 : Fin 1) n) := by
  refine (congrFun (result_column m dats c Gen.shapeCasts_S1x16384_S16384x1) _).trans ?_
  exact shapeCast_1a_a1_apply _ _ n (0 : Fin 1)

end Cert.KernelIdeal.Glue

end
-- ==== Proof.Result.lean ====
/-
  The common result: what BOTH programs leave in their result array, as one function of the six argument arrays —
  at row `n` (the result's one column), the maximum over the features of the rectified, scaled and shifted batch-normalised
  convolution, in the kernel's form (the product with the reciprocal square root; `Cert.Spec.outK_eq_outR` says the
  reference's quotient form is the same function).
-/
import proofs.«145461_g64123861729553_cont_9to1_m_268_10_alg».proof.Proof.Spec
import Idealize.ShloMosaic.Lib.ValueIdx

noncomputable section

namespace Cert.Spec

open Idealize.ShloMosaic Idealize.ShloMosaic.ValueIdx

/-- The convolution's value from the first four argument arrays, by coordinates. -/
def convOf (A0 : (⟨2, ![16384, 128]⟩ : Shape).Idx → EReal) (A1 : (⟨2, ![16384, 16384]⟩ : Shape).Idx → EReal)
    (A2 : (⟨2, ![16, 128]⟩ : Shape).Idx → EReal) (A3 : (⟨1, ![16]⟩ : Shape).Idx → EReal) : Fin 16384 → Fin 16 → EReal :=
  conv (fun n k => A0 (ix2 n k)) (fun n j => A1 (ix2 n j)) (fun o k => A2 (ix2 o k)) (fun o => A3 (ix1 o))

/-- The result array, a [16384, 1] column, from the six argument arrays. -/
def resultFn (A0 : (⟨2, ![16384, 128]⟩ : Shape).Idx → EReal) (A1 : (⟨2, ![16384, 16384]⟩ : Shape).Idx → EReal)
    (A2 : (⟨2, ![16, 128]⟩ : Shape).Idx → EReal) (A3 A4 A5 : (⟨1, ![16]⟩ : Shape).Idx → EReal) :
    (⟨2, ![16384, 1]⟩ : Shape).Idx → EReal :=
  fun y => outK (convOf A0 A1 A2 A3) (fun o => A4 (ix1 o)) (fun o => A5 (ix1 o)) ⟨(y 0).val, idx2_lt0 y⟩

/-- Every index of the one-column result is `(n, 0)`. -/
theorem resultFn_apply (A0 : (⟨2, ![16384, 128]⟩ : Shape).Idx → EReal) (A1 : (⟨2, ![16384, 16384]⟩ : Shape).Idx → EReal)
    (A2 : (⟨2, ![16, 128]⟩ : Shape).Idx → EReal) (A3 A4 A5 : (⟨1, ![16]⟩ : Shape).Idx → EReal) (n : Fin 16384) :
    resultFn A0 A1 A2 A3 A4 A5 (ix2 n (0 : Fin 1)) = outK (convOf A0 A1 A2 A3) (fun o => A4 (ix1 o)) (fun o => A5 (ix1 o)) n := rfl

/-- A function on the one-column index set is determined by its values at `(n, 0)`. -/
theorem eq_resultFn_of_apply {A0 : (⟨2, ![16384, 128]⟩ : Shape).Idx → EReal} {A1 : (⟨2, ![16384, 16384]⟩ : Shape).Idx → EReal}
    {A2 : (⟨2, ![16, 128]⟩ : Shape).Idx → EReal} {A3 A4 A5 : (⟨1, ![16]⟩ : Shape).Idx → EReal}
    (X : (⟨2, ![16384, 1]⟩ : Shape).Idx → EReal)
    (h : ∀ n : Fin 16384, X (ix2 n (0 : Fin 1)) = outK (convOf A0 A1 A2 A3) (fun o => A4 (ix1 o)) (fun o => A5 (ix1 o)) n) :
    X = resultFn A0 A1 A2 A3 A4 A5 := by
  funext y
  have hy : y = ix2 (⟨(y 0).val, idx2_lt0 y⟩ : Fin 16384) (0 : Fin 1) := by
    funext a; match a with
    | ⟨0, _⟩ => rfl
    | ⟨1, _⟩ => exact Subsingleton.elim (α := Fin 1) _ _
  rw [hy, h]; rfl

end Cert.Spec

end
-- ==== Proof.KernelValue.lean ====
/-
  The idealized kernel's value, at the ideal (extended-real) values, as the specification's formulas of the six
  argument arrays.

  The first scratch buffer holds the projection: at (j, o) the row j of the input against the row o of the weights,
  plus the bias at o. The second holds the convolution transposed: its column n lies in column slice n / 256 at
  position n mod 256, and row 256 · (n / 256) + n mod 256 of the Laplacian is row n, so at (o, n) it is the sum over
  the simplices j of the Laplacian's entry (n, j) times the projection at (j, o). The output row at n is the
  specification's result of that convolution with the scale and the shift.
-/
import proofs.«145461_g64123861729553_cont_9to1_m_268_10_alg».proof.Proof.Body
import proofs.«145461_g64123861729553_cont_9to1_m_268_10_alg».proof.Proof.KernelPayload
import proofs.«145461_g64123861729553_cont_9to1_m_268_10_alg».proof.Proof.KernelGlue
import proofs.«145461_g64123861729553_cont_9to1_m_268_10_alg».proof.Proof.Result
import Idealize.ShloMosaic.Lib.ValueIdx

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen
open Cert.KernelIdeal.Body Cert.KernelIdeal.PayloadValue Cert.KernelIdeal.Glue

variable (m : (ℓ : Loc nD τ sig) → Buf (Elt Ideal) ℓ)

/-- The projection held in the first scratch buffer, at row j and feature o. -/
theorem projV_apply (c : Dev nD) (j : Fin 16384) (o : Fin 16) :
    projV (F := Ideal) m c (ix2 j o)
      = Cert.Spec.proj (fun n k => m ((c : Thread nD τ).loc main_arg0) (ix2 n k))
          (fun o k => m ((c : Thread nD τ).loc main_arg2) (ix2 o k))
          (fun o => m ((c : Thread nD τ).loc main_arg3) (ix1 o)) j o := by
  unfold projV Cert.Spec.proj
  rw [pay1_apply, block_input, block_weights, block_bias]

/-- Row n mod 256 of the Laplacian's row block n / 256 is row n of the Laplacian. -/
private theorem laplacian_row (c : Dev nD) (n j : Fin 16384) :
    iblk m c 1 (tOfCol n.val n.isLt) (ix2 (⟨n.val % 256, Nat.mod_lt _ (by decide)⟩ : Fin 256) j)
      = m ((c : Thread nD τ).loc main_arg1) (ix2 n j) := by
  rw [block_laplacian]
  refine congrArg (m ((c : Thread nD τ).loc main_arg1)) ?_
  refine congrArg (fun i : Fin 16384 => ix2 i j) (Fin.ext ?_)
  exact Nat.div_add_mod n.val 256

/-- The transposed convolution held in the second scratch buffer, at feature o and simplex n. -/
theorem convT_apply (c : Dev nD) (o : Fin 16) (n : Fin 16384) :
    convT (F := Ideal) m c (ix2 o n)
      = Cert.Spec.convOf (m ((c : Thread nD τ).loc main_arg0)) (m ((c : Thread nD τ).loc main_arg1))
          (m ((c : Thread nD τ).loc main_arg2)) (m ((c : Thread nD τ).loc main_arg3)) n o := by
  unfold Cert.Spec.convOf Cert.Spec.conv
  show k0_pay2 (F := Ideal) (iblk m c 1 (tOfCol n.val n.isLt)) (projV m c)
      (ix2 o (⟨n.val % 256, Nat.mod_lt _ (by decide)⟩ : Fin 256)) = _
  rw [pay2_apply]
  refine Finset.sum_congr rfl fun j _ => ?_
  rw [laplacian_row, projV_apply]

/-- The row the last point stores into the output's buffer, at simplex n: the specification's result. -/
theorem outV_apply (c : Dev nD) (n : Fin 16384) :
    outV (F := Ideal) m c (ix2 (0 : Fin 1) n)
      = Cert.Spec.outK (Cert.Spec.convOf (m ((c : Thread nD τ).loc main_arg0)) (m ((c : Thread nD τ).loc main_arg1))
            (m ((c : Thread nD τ).loc main_arg2)) (m ((c : Thread nD τ).loc main_arg3)))
          (fun o => m ((c : Thread nD τ).loc main_arg4) (ix1 o))
          (fun o => m ((c : Thread nD τ).loc main_arg5) (ix1 o)) n := by
  unfold outV
  rw [pay3_apply]
  have hz : (fun (n : Fin 16384) (o : Fin 16) => convT (F := Ideal) m c (ix2 o n))
      = Cert.Spec.convOf (m ((c : Thread nD τ).loc main_arg0)) (m ((c : Thread nD τ).loc main_arg1))
          (m ((c : Thread nD τ).loc main_arg2)) (m ((c : Thread nD τ).loc main_arg3)) :=
    funext fun n => funext fun o => convT_apply m c o n
  have hg : (fun o : Fin 16 => (iblk m c 4 tLast (ix2 o (0 : Fin 1)) : EReal))
      = fun o => m ((c : Thread nD τ).loc main_arg4) (ix1 o) :=
    funext fun o => block_scale m c tLast o
  have hb : (fun o : Fin 16 => (iblk m c 5 tLast (ix2 o (0 : Fin 1)) : EReal))
      = fun o => m ((c : Thread nD τ).loc main_arg5) (ix1 o) :=
    funext fun o => block_shift m c tLast o
  exact congrArg₂ (fun γ β => Cert.Spec.outK _ γ β n) hg hb |>.trans (by rw [hz])

end Cert.KernelIdeal.KValue

end
-- ==== Proof.KernelFinal.lean ====
/-
  The idealized kernel's run with its RESULT named: the result array ends at the common result function of the six
  argument arrays (the host line after the region reshapes the kernel's [1, 16384] row into the [16384, 1] column;
  the row is what the last grid point stored, the maximum over the features of the rectified batch-normalised
  convolution), and the argument arrays end unchanged.
-/
import proofs.«145461_g64123861729553_cont_9to1_m_268_10_alg».proof.Proof.BodyFrame
import proofs.«145461_g64123861729553_cont_9to1_m_268_10_alg».proof.Proof.KernelValue
import proofs.«145461_g64123861729553_cont_9to1_m_268_10_alg».proof.Proof.KernelGlue
import proofs.«145461_g64123861729553_cont_9to1_m_268_10_alg».proof.Proof.Result

noncomputable section

namespace Cert.KernelIdeal.Final

open Cert.KernelIdeal Cert.KernelIdeal.Gen Cert.KernelIdeal.Body
open Idealize.ShloMosaic Idealize.ShloMosaic.ValueIdx Idealize.ShloMosaic.TcCoe Idealize.SL.Sem

variable (m : (ℓ : Loc nD τ sig) → Buf (Elt Ideal) ℓ) (ρ : Dev nD → PrngReg)

theorem run_result : θ_run (defs (F := Ideal)) (onTc (τ := τ) (main (F := Ideal))) ⟨m, fun _ => 0, ρ⟩ (fun r => ∀ c : Dev nD,
      r.2.mem ((c.tc : Thread nD τ).loc main_v4) = Cert.Spec.resultFn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨
      ((h c).2 main_v4 (Pipeline.mem_restRefs_of main_v4 (by decide) (by decide))).trans
        (Cert.Spec.eq_resultFn_of_apply _ fun n =>
          (Glue.result_apply m (dats m) c n).trans ((congrFun (arr_out m c) (ix2 (0 : Fin 1) n)).trans (KValue.outV_apply m c n))),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Final

end
-- ==== Proof.RefTerm.lean ====
/-
  The reference's result as ONE pure term of its six argument arrays, operation by operation in the order the
  reference computes them: the projection `Z_H · Wᵀ + b`, the convolution with the Laplacian, the batch mean, the
  batch variance (the centred squares' sum over `N − ddof` with `ddof = 0`, selected where `N − ddof > 0`), the
  normalisation by the quotient with `sqrt (var + ε)`, the affine map, the rectifier, and the maximum over the features.
-/
import proofs.«145461_g64123861729553_cont_9to1_m_268_10_alg».proof.ReferenceIdeal

noncomputable section

namespace Cert.ReferenceIdeal.RefTerm

open Idealize.ShloMosaic Cert.ReferenceIdeal

variable {F : FTy → Type} [FloatOps F] [Facts]
open Facts₀ Facts

/-- `Z_H · Wᵀ + b`. -/
def tProj (a0 : FVec F S16384x128 .f32) (a2 : FVec F S16x128 .f32) (a3 : FVec F S16 .f32) : FVec F S16384x16 .f32 :=
  have v0 : FVec F S128x16 .f32 := transpose S128x16 [1, 0] a2 transposes_S16x128_S128x16_1_0
  have v1 : FVec F S16384x16 .f32 := Host.dotGeneral dot_S16384x128_S128x16_S16384x16_1_0_0_1_n_n none a0 v0
  have v2 : FVec F S1x16 .f32 := broadcastInDim S1x16 ![1] bcast_S16_S1x16_1 a3
  have v3 : FVec F S16384x16 .f32 := broadcastInDim S16384x16 ![0, 1] bcast_S1x16_S16384x16_0_1 v2
  addf v1 v3

/-- `L · (Z_H · Wᵀ + b)`. -/
def tConv (a0 : FVec F S16384x128 .f32) (a1 : FVec F S16384x16384 .f32) (a2 : FVec F S16x128 .f32) (a3 : FVec F S16 .f32) :
    FVec F S16384x16 .f32 :=
  Host.dotGeneral dot_S16384x16384_S16384x16_S16384x16_1_0_0_1_n_n none a1 (tProj a0 a2 a3)

/-- The batch mean of each feature. -/
def tMean (z : FVec F S16384x16 .f32) : FVec F S16 .f32 :=
  have v6 : FVec F S16 .f32 := Host.reduceAdd z (constant S_ .f32 0x00000000#32) reducesTo_S16384x16_S16_d0 h_S_
  have v7 : FVec F S16 .f32 := broadcastInDim S16 ![] bcast_S_S16 (constant S_ .f32 0x46800000#32)
  Host.divf v6 v7

/-- The batch variance of each feature, as the outlined variance function computes it at `ddof = 0`. -/
def tVar (z : FVec F S16384x16 .f32) : FVec F S16 .f32 :=
  have c : IVec S_ 32 := constantI S_ 32 0#32
  have v0 : FVec F S16 .f32 := Host.reduceAdd z (constant S_ .f32 0x00000000#32) reducesTo_S16384x16_S16_d0 h_S_
  have v1 : FVec F S1x16 .f32 := broadcastInDim S1x16 ![1] bcast_S16_S1x16_1 v0
  have v2 : FVec F S1x16 .f32 := broadcastInDim S1x16 ![] bcast_S_S1x16 (constant S_ .f32 0x46800000#32)
  have v3 : FVec F S1x16 .f32 := Host.divf v1 v2
  have v4 : FVec F S16384x16 .f32 := broadcastInDim S16384x16 ![0, 1] bcast_S1x16_S16384x16_0_1 v3
  have v5 : FVec F S16384x16 .f32 := subf z v4
  have v6 : FVec F S16384x16 .f32 := mulf v5 v5
  have v7 : FVec F S_ .f32 := sitofp .f32 c
  have v8 : FVec F S_ .f32 := subf (constant S_ .f32 0x46800000#32) v7
  have v9 : FVec F S16 .f32 := Host.reduceAdd v6 (constant S_ .f32 0x00000000#32) reducesTo_S16384x16_S16_d0 h_S_
  have v10 : FVec F S16 .f32 := broadcastInDim S16 ![] bcast_S_S16 v8
  have v11 : FVec F S16 .f32 := Host.divf v9 v10
  have v12 : IVec S_ 1 := cmpf .ogt v8 (constant S_ .f32 0x00000000#32)
  have w0 : FVec F S_ .f32 := id (constant S_ .f32 0x7FC00000#32)
  have w1 : FVec F S16 .f32 := broadcastInDim S16 ![] bcast_S_S16 w0
  select (broadcastInDim S16 ![] bcast_S_S16 v12) v11 w1

/-- The whole reference: normalise, scale and shift, rectify, take the maximum over the features. -/
def tOut (a0 : FVec F S16384x128 .f32) (a1 : FVec F S16384x16384 .f32) (a2 : FVec F S16x128 .f32)
    (a3 a4 a5 : FVec F S16 .f32) : FVec F S16384x1 .f32 :=
  have v5 : FVec F S16384x16 .f32 := tConv a0 a1 a2 a3
  have v8 : FVec F S16 .f32 := tMean v5
  have v9 : FVec F S16 .f32 := tVar v5
  have v10 : FVec F S1x16 .f32 := broadcastInDim S1x16 ![1] bcast_S16_S1x16_1 v8
  have v11 : FVec F S16384x16 .f32 := broadcastInDim S16384x16 ![0, 1] bcast_S1x16_S16384x16_0_1 v10
  have v12 : FVec F S16384x16 .f32 := subf v5 v11
  have v13 : FVec F S16 .f32 := broadcastInDim S16 ![] bcast_S_S16 (constant S_ .f32 0x3727C5AC#32)
  have v14 : FVec F S16 .f32 := addf v9 v13
  have v15 : FVec F S16 .f32 := Host.sqrt v14
  have v16 : FVec F S1x16 .f32 := broadcastInDim S1x16 ![1] bcast_S16_S1x16_1 v15
  have v17 : FVec F S16384x16 .f32 := broadcastInDim S16384x16 ![0, 1] bcast_S1x16_S16384x16_0_1 v16
  have v18 : FVec F S16384x16 .f32 := Host.divf v12 v17
  have v19 : FVec F S1x16 .f32 := broadcastInDim S1x16 ![1] bcast_S16_S1x16_1 a4
  have v20 : FVec F S16384x16 .f32 := broadcastInDim S16384x16 ![0, 1] bcast_S1x16_S16384x16_0_1 v19
  have v21 : FVec F S16384x16 .f32 := mulf v20 v18
  have v22 : FVec F S1x16 .f32 := broadcastInDim S1x16 ![1] bcast_S16_S1x16_1 a5
  have v23 : FVec F S16384x16 .f32 := broadcastInDim S16384x16 ![0, 1] bcast_S1x16_S16384x16_0_1 v22
  have v24 : FVec F S16384x16 .f32 := addf v21 v23
  have r0 : FVec F S16384x16 .f32 := broadcastInDim S16384x16 ![] bcast_S_S16384x16 (constant S_ .f32 0x00000000#32)
  have v25 : FVec F S16384x16 .f32 := maximumf v24 r0
  have v26 : FVec F S16384 .f32 := Host.reduce FloatOps.maximumf v25 (constant S_ .f32 0xFF800000#32) reducesTo_S16384x16_S16384_d1 h_S_
  broadcastInDim S16384x1 ![0] bcast_S16384_S16384x1_0 v26

end Cert.ReferenceIdeal.RefTerm

end
-- ==== Proof.RefRun.lean ====
/-
  The reference's run. The reference has no kernel: its @main is a straight line of host operations, two of them
  calls of outlined functions (the batch variance, which itself calls the selection; the rectifier). With each callee's
  operations written at its call site over that call's own buffers the program is ONE list of 56 operations, and
  its run is the fold of their results over the launch contents: every weakly fair execution terminates with the
  result buffer at the operations' composed pure term of the six arguments (`RefTerm.tOut`), the arguments unchanged.
-/
import proofs.«145461_g64123861729553_cont_9to1_m_268_10_alg».proof.ReferenceIdeal
import proofs.«145461_g64123861729553_cont_9to1_m_268_10_alg».proof.Proof.RefTerm
import proofs.«145461_g64123861729553_cont_9to1_m_268_10_alg».proof.Proof.Gen.ReferenceIdeal
import Idealize.ShloMosaic.Lib.StableHlo.Run
import Idealize.ShloMosaic.Adequacy
import Idealize.ShloMosaic.Init

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-- @main's operations in order, the calls unfolded: @main's first twelve (the projection, the convolution, the batch
    mean, the integer zero); the variance function's twenty over its call's buffers, the selection's three inside it
    over the inner call's (the last writes the variance, @main's %9); @main's next sixteen (the normalisation and the
    affine map); the rectifier's three over its call's buffers (the last writes @main's %25); the maximum over the
    features and its broadcast to a column. -/
abbrev ops : List (HloOp τ sig (Elt F)) :=
  [
    unary main_arg2 main_v0 (transpose S128x16 [1, 0] · transposes_S16x128_S128x16_1_0),
    binary main_arg0 main_v0 main_v1 (fun l r => Host.dotGeneral dot_S16384x128_S128x16_S16384x16_1_0_0_1_n_n none l r),
    unary main_arg3 main_v2 (broadcastInDim S1x16 ![1] bcast_S16_S1x16_1),
    unary main_v2 main_v3 (broadcastInDim S16384x16 ![0, 1] bcast_S1x16_S16384x16_0_1),
    binary main_v1 main_v3 main_v4 addf,
    binary main_arg1 main_v4 main_v5 (fun l r => Host.dotGeneral dot_S16384x16384_S16384x16_S16384x16_1_0_0_1_n_n none l r),
    nullary main_cst (constant S_ .f32 0x00000000#32),
    binary main_v5 main_cst main_v6 (fun x v => Host.reduceAdd x v reducesTo_S16384x16_S16_d0 h_S_),
    nullary main_cst_0 (constant S_ .f32 0x46800000#32),
    unary main_cst_0 main_v7 (broadcastInDim S16 ![] bcast_S_S16),
    binary main_v6 main_v7 main_v8 Host.divf,
    nullary main_c (constantI S_ 32 0#32),
    TRef.nullary main_call0.cst (constant S_ .f32 0x00000000#32),
    TRef.binary (.of main_v5) main_call0.cst main_call0.v0 (fun x v => Host.reduceAdd x v reducesTo_S16384x16_S16_d0 h_S_),
    TRef.unary main_call0.v0 main_call0.v1 (broadcastInDim S1x16 ![1] bcast_S16_S1x16_1),
    TRef.nullary main_call0.cst_0 (constant S_ .f32 0x46800000#32),
    TRef.unary main_call0.cst_0 main_call0.v2 (broadcastInDim S1x16 ![] bcast_S_S1x16),
    TRef.binary main_call0.v1 main_call0.v2 main_call0.v3 Host.divf,
    TRef.unary main_call0.v3 main_call0.v4 (broadcastInDim S16384x16 ![0, 1] bcast_S1x16_S16384x16_0_1),
    TRef.binary (.of main_v5) main_call0.v4 main_call0.v5 subf,
    TRef.binary main_call0.v5 main_call0.v5 main_call0.v6 mulf,
    TRef.unary (.of main_c) main_call0.v7 (sitofp .f32),
    TRef.nullary main_call0.cst_1 (constant S_ .f32 0x46800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S16384x16_S16_d0 h_S_),
    TRef.unary main_call0.v8 main_call0.v10 (broadcastInDim S16 ![] bcast_S_S16),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S16 ![] bcast_S_S16),
    TRef.ternary main_call0.v12 main_call0.v11 main_call0.call0.v1 main_call0.call0.v2 (fun p a b => select (broadcastInDim S16 ![] bcast_S_S16 p) a b),
    unary main_v8 main_v10 (broadcastInDim S1x16 ![1] bcast_S16_S1x16_1),
    unary main_v10 main_v11 (broadcastInDim S16384x16 ![0, 1] bcast_S1x16_S16384x16_0_1),
    binary main_v5 main_v11 main_v12 subf,
    nullary main_cst_1 (constant S_ .f32 0x3727C5AC#32),
    unary main_cst_1 main_v13 (broadcastInDim S16 ![] bcast_S_S16),
    binary main_v9 main_v13 main_v14 addf,
    unary main_v14 main_v15 Host.sqrt,
    unary main_v15 main_v16 (broadcastInDim S1x16 ![1] bcast_S16_S1x16_1),
    unary main_v16 main_v17 (broadcastInDim S16384x16 ![0, 1] bcast_S1x16_S16384x16_0_1),
    binary main_v12 main_v17 main_v18 Host.divf,
    unary main_arg4 main_v19 (broadcastInDim S1x16 ![1] bcast_S16_S1x16_1),
    unary main_v19 main_v20 (broadcastInDim S16384x16 ![0, 1] bcast_S1x16_S16384x16_0_1),
    binary main_v20 main_v18 main_v21 mulf,
    unary main_arg5 main_v22 (broadcastInDim S1x16 ![1] bcast_S16_S1x16_1),
    unary main_v22 main_v23 (broadcastInDim S16384x16 ![0, 1] bcast_S1x16_S16384x16_0_1),
    binary main_v21 main_v23 main_v24 addf,
    TRef.nullary main_call1.cst (constant S_ .f32 0x00000000#32),
    TRef.unary main_call1.cst main_call1.v0 (broadcastInDim S16384x16 ![] bcast_S_S16384x16),
    TRef.binary (.of main_v24) main_call1.v0 main_call1.v1 maximumf,
    nullary main_cst_2 (constant S_ .f32 0xFF800000#32),
    binary main_v25 main_cst_2 main_v26 (fun x v => Host.reduce FloatOps.maximumf x v reducesTo_S16384x16_S16384_d1 h_S_),
    unary main_v26 main_v27 (broadcastInDim S16384x1 ![0] bcast_S16384_S16384x1_0) ]

-- the chain has fifty-six steps; its reassociation recurses once per step
set_option maxRecDepth 2048 in
/-- @main is that straight line: the functions' definitions unfolded at their calls and the records at their fields,
    both sides are one chain of `hlo` steps once sequencing is reassociated. -/
theorem main_eq (c : Dev nD) : main (F := F) c = seq ops := by
  simp only [main, fn_var.body, fn_where.body, fn_relu.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    unary_bufs_sub .., binary_bufs_sub .., unary_bufs_sub .., unary_bufs_sub .., binary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    binary_bufs_sub .., unary_bufs_sub ..⟩

/-- On every device, for any float values, from any memory with zero counters: every weakly fair execution of @main
    terminates with the result at the operations' composed term of the arguments and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v27)
        = RefTerm.tOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v27).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefRun

end
-- ==== Proof.RefValue.lean ====
/-
  The reference's result term read at an index, at the ideal values: each stage of the term is the formula of the
  specification over explicit coordinates (a row `n` of 16384, a feature `o` of 16, an input channel `k` of 128).

    the projection at (n, o)   = (Σ_k ZH n k · W o k) + b o
    the convolution at (n, o)  = Σ_j L n j · proj j o
    the mean at o              = (Σ_n Z n o) / N
    the variance at o          = (Σ_n (Z n o − mean o)²) / (N − 0), selected because N − 0 > 0
    the result at (n, 0)       = the maximum over o, from −∞, of max (γ o · (cen n o / sqrt (var o + ε)) + β o) 0
-/
import proofs.«145461_g64123861729553_cont_9to1_m_268_10_alg».proof.Proof.RefTerm
import proofs.«145461_g64123861729553_cont_9to1_m_268_10_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.Lib.StackMember
import Idealize.ShloMosaic.PureOps.Ideal.Laws
import Idealize.ShloMosaic.PureOps.Reduce

noncomputable section

namespace Cert.ReferenceIdeal.RefValue

open Idealize.ShloMosaic Idealize.ShloMosaic.ValueIdx Cert.ReferenceIdeal

variable [Cert.ReferenceIdeal.Facts]
open Facts₀ Facts

/-! ## The layout operations of the reference at an index -/

/-- A vector of 16 made a one-row matrix reads, at (0, o), the vector at o. -/
private theorem row_apply {α : Type} (v : S16.Idx → α) (u : Fin 1) (o : Fin 16) :
    broadcastInDim S1x16 ![1] bcast_S16_S1x16_1 v (ix2 u o) = v (ix1 o) :=
  broadcastInDim_apply ![1] bcast_S16_S1x16_1 v (ix2 u o) (ix1 o) fun a => match a with | ⟨0, _⟩ => rfl

/-- … and that row copied down the 16384 rows reads, at (n, o), the vector at o. -/
private theorem rows_apply {α : Type} (v : S16.Idx → α) (n : Fin 16384) (o : Fin 16) :
    broadcastInDim S16384x16 ![0, 1] bcast_S1x16_S16384x16_0_1 (broadcastInDim S1x16 ![1] bcast_S16_S1x16_1 v) (ix2 n o)
      = v (ix1 o) :=
  (broadcastInDim_oneRow_apply bcast_S1x16_S16384x16_0_1 _ n o).trans (row_apply v 0 o)

/-! ## The two products -/

/-- The projection's product at (n, o): the sum over the 128 input channels. -/
private theorem dot1_apply (A : FVec Ideal S16384x128 .f32) (B : FVec Ideal S128x16 .f32) (n : Fin 16384) (o : Fin 16) :
    Host.dotGeneral dot_S16384x128_S128x16_S16384x16_1_0_0_1_n_n none A B (ix2 n o)
      = ∑ k : Fin 128, A (ix2 n k) * B (ix2 k o) :=
  StackMember.dotGeneral_plain_apply (m := 16384) (n := 16) (k := 128) none A B n o

/-- The convolution's product at (n, o): the sum over the 16384 rows. -/
private theorem dot2_apply (A : FVec Ideal S16384x16384 .f32) (B : FVec Ideal S16384x16 .f32) (n : Fin 16384) (o : Fin 16) :
    Host.dotGeneral dot_S16384x16384_S16384x16_S16384x16_1_0_0_1_n_n none A B (ix2 n o)
      = ∑ j : Fin 16384, A (ix2 n j) * B (ix2 j o) :=
  StackMember.dotGeneral_plain_apply (m := 16384) (n := 16) (k := 16384) none A B n o

/-- The projection `Z_H · Wᵀ + b` at (n, o). -/
theorem tProj_apply (a0 : FVec Ideal S16384x128 .f32) (a2 : FVec Ideal S16x128 .f32) (a3 : FVec Ideal S16 .f32)
    (n : Fin 16384) (o : Fin 16) :
    RefTerm.tProj (F := Ideal) a0 a2 a3 (ix2 n o)
      = Cert.Spec.proj (fun n k => a0 (ix2 n k)) (fun o k => a2 (ix2 o k)) (fun o => a3 (ix1 o)) n o := by
  unfold RefTerm.tProj Cert.Spec.proj
  dsimp only
  rw [addf_apply, dot1_apply, rows_apply]
  refine congrArg (· + a3 (ix1 o)) (Finset.sum_congr rfl fun k _ => ?_)
  rw [transpose_ix2_apply]

/-- The convolution `L · proj` at (n, o). -/
theorem tConv_apply (a0 : FVec Ideal S16384x128 .f32) (a1 : FVec Ideal S16384x16384 .f32) (a2 : FVec Ideal S16x128 .f32)
    (a3 : FVec Ideal S16 .f32) (n : Fin 16384) (o : Fin 16) :
    RefTerm.tConv (F := Ideal) a0 a1 a2 a3 (ix2 n o)
      = Cert.Spec.conv (fun n k => a0 (ix2 n k)) (fun n j => a1 (ix2 n j)) (fun o k => a2 (ix2 o k)) (fun o => a3 (ix1 o)) n o := by
  unfold RefTerm.tConv Cert.Spec.conv
  rw [dot2_apply]
  exact Finset.sum_congr rfl fun j _ => by rw [tProj_apply]

/-! ## The sum down a column, the mean and the variance -/

/-- The reduction over the rows, from the zero word, at o: the sum of the column. -/
private theorem colSum_apply (z : FVec Ideal S16384x16 .f32) (o : Fin 16) :
    Host.reduceAdd z (constant (F := Ideal) S_ .f32 0x00000000#32) reducesTo_S16384x16_S16_d0 h_S_ (ix1 o)
      = ∑ n : Fin 16384, z (ix2 n o) := by
  have h : S16384x16.Reduces [0] S16 := by decide
  rw [hostReduceAdd_apply, Ideal.hostReduceAdd_single reducesTo_S16384x16_S16_d0 h z _ (ix1 o), constant_apply,
    Ideal.ofBits_zero_f32, zero_add]
  refine Finset.sum_congr rfl fun k _ => congrArg z (funext fun a => Fin.ext ?_)
  match a with
  | ⟨0, _⟩ => rfl
  | ⟨1, _⟩ => rfl

/-- A scalar copied to 16 entries reads the scalar. -/
private theorem splat16_apply {α : Type} (x : S_.Idx → α) (o : Fin 16) :
    broadcastInDim S16 ![] bcast_S_S16 x (ix1 o) = x ix0 :=
  broadcastInDim_scalar_apply bcast_S_S16 x (ix1 o)

/-- The batch mean at o. -/
theorem tMean_apply (z : FVec Ideal S16384x16 .f32) (o : Fin 16) :
    RefTerm.tMean (F := Ideal) z (ix1 o) = Cert.Spec.mean (fun n o => z (ix2 n o)) o := by
  unfold RefTerm.tMean Cert.Spec.mean
  dsimp only
  rw [hostDivf_apply, colSum_apply, splat16_apply, constant_apply]

/-- The literal count less the converted integer zero is the count. -/
private theorem count_apply :
    subf (constant (F := Ideal) S_ .f32 0x46800000#32) (sitofp .f32 (constantI S_ 32 0#32)) ix0 = Cert.Spec.cN := by
  rw [subf_apply, constant_apply, sitofp_apply]
  show Cert.Spec.cN - (Scalar.sitofp .f32 0#32 : Ideal .f32) = Cert.Spec.cN
  rw [sitofp_zero, sub_zero]

/-- The count is positive, so the comparison's bit is 1. -/
private theorem countPos_apply :
    cmpf .ogt (subf (constant (F := Ideal) S_ .f32 0x46800000#32) (sitofp .f32 (constantI S_ 32 0#32)))
      (constant (F := Ideal) S_ .f32 0x00000000#32) ix0 = 1#1 := by
  rw [cmpf_apply, count_apply, constant_apply, Ideal.ofBits_zero_f32, Ideal.cmpf_def]
  show BitVec.ofBool (decide ((0 : EReal) < Cert.Spec.cN)) = 1#1
  rw [decide_eq_true Cert.Spec.cN_pos]
  rfl

/-- The batch variance at o. -/
theorem tVar_apply (z : FVec Ideal S16384x16 .f32) (o : Fin 16) :
    RefTerm.tVar (F := Ideal) z (ix1 o) = Cert.Spec.var (fun n o => z (ix2 n o)) o := by
  unfold RefTerm.tVar Cert.Spec.var
  dsimp only
  rw [select_apply, splat16_apply, countPos_apply, select_one, hostDivf_apply, splat16_apply, count_apply, colSum_apply]
  refine congrArg (fun s => Ideal.div s Cert.Spec.cN) (Finset.sum_congr rfl fun n _ => ?_)
  have hc : subf z (broadcastInDim S16384x16 ![0, 1] bcast_S1x16_S16384x16_0_1
        (Host.divf (broadcastInDim S1x16 ![1] bcast_S16_S1x16_1
            (Host.reduceAdd z (constant (F := Ideal) S_ .f32 0x00000000#32) reducesTo_S16384x16_S16_d0 h_S_))
          (broadcastInDim S1x16 ![] bcast_S_S1x16 (constant (F := Ideal) S_ .f32 0x46800000#32)))) (ix2 n o)
      = Cert.Spec.cen (fun n o => z (ix2 n o)) n o := by
    unfold Cert.Spec.cen Cert.Spec.mean
    rw [subf_apply, broadcastInDim_oneRow_apply, hostDivf_apply, row_apply, colSum_apply,
      broadcastInDim_scalar_apply, constant_apply]
  rw [mulf_apply, hc]

/-! ## The result -/

/-- A scalar copied to the whole 16384 × 16 array reads the scalar. -/
private theorem splatAll_apply {α : Type} (x : S_.Idx → α) (n : Fin 16384) (o : Fin 16) :
    broadcastInDim S16384x16 ![] bcast_S_S16384x16 x (ix2 n o) = x ix0 :=
  broadcastInDim_scalar_apply bcast_S_S16384x16 x (ix2 n o)

/-- The maximum over the features, from the word of −∞, at row n: the fold of `max` over the 16 features. -/
private theorem rowMax_apply (y : FVec Ideal S16384x16 .f32) (n : Fin 16384) :
    Host.reduce FloatOps.maximumf y (constant (F := Ideal) S_ .f32 0xFF800000#32) reducesTo_S16384x16_S16384_d1 h_S_ (ix1 n)
      = (Finset.univ : Finset (Fin 16)).fold max Cert.Spec.cNegInf (fun o => y (ix2 n o)) := by
  have h : S16384x16.Reduces [1] S16384 := by decide
  rw [Host.reduce_eq_fold_single FloatOps.maximumf y _ reducesTo_S16384x16_S16384_d1 h h_S_ (ix1 n), constant_apply]
  show (Finset.univ : Finset (Fin 16)).fold max Cert.Spec.cNegInf (y ∘ h.lift (ix1 n)) = _
  refine congrArg (fun f => (Finset.univ : Finset (Fin 16)).fold max Cert.Spec.cNegInf f) (funext fun o => ?_)
  refine congrArg y (funext fun a => Fin.ext ?_)
  match a with
  | ⟨0, _⟩ => rfl
  | ⟨1, _⟩ => rfl

/-- A vector of 16384 made a one-column matrix reads, at (n, 0), the vector at n. -/
private theorem col_apply {α : Type} (v : S16384.Idx → α) (n : Fin 16384) :
    broadcastInDim S16384x1 ![0] bcast_S16384_S16384x1_0 v (ix2 n (0 : Fin 1)) = v (ix1 n) :=
  broadcastInDim_apply ![0] bcast_S16384_S16384x1_0 v (ix2 n (0 : Fin 1)) (ix1 n) fun a => match a with | ⟨0, _⟩ => rfl

/-- The host's square root at an index is the extended reals' square root of the element. -/
private theorem hostSqrt_apply {s : Shape} (x : FVec Ideal s .f32) (i : s.Idx) : Host.sqrt x i = Ideal.sqrt (x i) := rfl

/-- THE REFERENCE'S RESULT at (n, 0): the specification's `outR` of the convolution, the scale and the shift. -/
theorem tOut_apply (a0 : FVec Ideal S16384x128 .f32) (a1 : FVec Ideal S16384x16384 .f32) (a2 : FVec Ideal S16x128 .f32)
    (a3 a4 a5 : FVec Ideal S16 .f32) (n : Fin 16384) :
    RefTerm.tOut (F := Ideal) a0 a1 a2 a3 a4 a5 (ix2 n (0 : Fin 1))
      = Cert.Spec.outR (Cert.Spec.conv (fun n k => a0 (ix2 n k)) (fun n j => a1 (ix2 n j)) (fun o k => a2 (ix2 o k))
            (fun o => a3 (ix1 o))) (fun o => a4 (ix1 o)) (fun o => a5 (ix1 o)) n := by
  have hz : (fun (n : Fin 16384) (o : Fin 16) => RefTerm.tConv (F := Ideal) a0 a1 a2 a3 (ix2 n o))
      = Cert.Spec.conv (fun n k => a0 (ix2 n k)) (fun n j => a1 (ix2 n j)) (fun o k => a2 (ix2 o k)) (fun o => a3 (ix1 o)) :=
    funext fun n => funext fun o => tConv_apply a0 a1 a2 a3 n o
  rw [← hz]
  unfold RefTerm.tOut Cert.Spec.outR
  dsimp only
  rw [col_apply, rowMax_apply]
  refine congrArg (fun f => (Finset.univ : Finset (Fin 16)).fold max Cert.Spec.cNegInf f) (funext fun o => ?_)
  unfold Cert.Spec.actR Cert.Spec.cen
  rw [maximumf_apply, splatAll_apply, constant_apply, addf_apply, mulf_apply, rows_apply, rows_apply, hostDivf_apply,
    subf_apply, rows_apply, rows_apply, hostSqrt_apply, addf_apply, splat16_apply, constant_apply, tMean_apply, tVar_apply]

end Cert.ReferenceIdeal.RefValue

end
-- ==== Proof.RefFinal.lean ====
/-
  The reference's half of the comparison, at the ideal values: the reference runs, its argument arrays end unchanged,
  and its result array ends at the common result function of the six argument arrays — the run gives the result as the
  operations' composed term, that term read at (n, 0) is the specification's quotient form of the convolution, and the
  quotient form is the product form (`x / √v = x · rsqrt v` on the extended reals), which is the common function.
-/
import proofs.«145461_g64123861729553_cont_9to1_m_268_10_alg».proof.Defs
import proofs.«145461_g64123861729553_cont_9to1_m_268_10_alg».proof.Proof.Gen.ReferenceIdeal
import proofs.«145461_g64123861729553_cont_9to1_m_268_10_alg».proof.Proof.Gen.Pre_finite_inputs
import proofs.«145461_g64123861729553_cont_9to1_m_268_10_alg».proof.Proof.RefRun
import proofs.«145461_g64123861729553_cont_9to1_m_268_10_alg».proof.Proof.RefValue
import proofs.«145461_g64123861729553_cont_9to1_m_268_10_alg».proof.Proof.Result

noncomputable section

namespace Cert.ReferenceIdeal.RefFinal

open Cert.ReferenceIdeal Idealize.ShloMosaic Idealize.ShloMosaic.TcCoe Idealize.SL.Sem Idealize.ShloMosaic.ValueIdx

/-- At the ideal values, on every device, from any memory with zero counters: every weakly fair execution of the
    reference terminates with its result array at the common result function of the arguments' launch contents, and
    the arguments unchanged. -/
theorem run_result (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v27)
        = Cert.Spec.resultFn (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run defs _ _).mono (fun _ h c =>
      ⟨(h c).1.trans (Cert.Spec.eq_resultFn_of_apply _ fun n =>
          (RefValue.tOut_apply _ _ _ _ _ _ n).trans (congrFun (Cert.Spec.outK_eq_outR _ _ _) n).symm),
        (h c).2⟩)
    (RefRun.run (F := Ideal) m' ρ')

/-- The reference runs and its argument arrays end unchanged. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2) (RefRun.run (F := Ideal) m ρ)

end Cert.ReferenceIdeal.RefFinal

end
-- ==== Proof.lean ====
/-
  The certificate: the dense simplicial convolution kernel against its reference, over the extended reals.

  Both programs compute, from `Z_H` [16384, 128], the Laplacian `L` [16384, 16384], `W` [16, 128] and the vectors `b`, `γ`,
  `β` [16]: the projection `Z_H · Wᵀ + b`, its product with `L`, the batch normalisation of each of the 16 features over the
  16384 rows (mean, biased variance, `ε`), the affine map `γ · · + β`, the rectifier, and the maximum over the features: a
  [16384, 1] column.
  The kernel sweeps `L` once in 64 row blocks: the first grid point computes the projection into a scratch buffer; every
  point multiplies its row block with it and stores the 256 × 16 product, transposed, as 256 columns of a second scratch
  (16 × 16384); the last point reads that scratch whole and finishes. It normalises by the PRODUCT with the reciprocal
  square root where the reference takes the QUOTIENT by the square root. On the extended reals these agree because the
  radicand `var + ε` is always positive — a square is never negative there, so neither is the variance — and at a positive
  real, or at `⊤`, `x / √v = x · rsqrt v` (Proof/Spec.lean). No finiteness of the inputs is used.

  The modules: Spec (the mathematics, free of both programs) and Result (the common result function); Body and BodyFrame
  (the kernel's three cases run symbolically, the invariant of the two scratch buffers point by point, the body
  obligation, the launch and the frame, for any float instance) with SliceStep (a buffer filled 256 columns at a time);
  KernelPayload, KernelGlue, KernelValue, KernelFinal (what the kernel's result array holds); RefTerm, RefRun, RefValue,
  RefFinal (the reference's run and what its result array holds). The word-level program's frame is the same text at
  the other namespace (BodyK, BodyFrameK, SliceStepK).
-/
import proofs.«145461_g64123861729553_cont_9to1_m_268_10_alg».proof.Defs
import proofs.«145461_g64123861729553_cont_9to1_m_268_10_alg».proof.Proof.Gen.Kernel
import proofs.«145461_g64123861729553_cont_9to1_m_268_10_alg».proof.Proof.Gen.KernelIdeal
import proofs.«145461_g64123861729553_cont_9to1_m_268_10_alg».proof.Proof.Gen.ReferenceIdeal
import proofs.«145461_g64123861729553_cont_9to1_m_268_10_alg».proof.Proof.Gen.Pre_finite_inputs
import proofs.«145461_g64123861729553_cont_9to1_m_268_10_alg».proof.Proof.BodyFrameK
import proofs.«145461_g64123861729553_cont_9to1_m_268_10_alg».proof.Proof.KernelFinal
import proofs.«145461_g64123861729553_cont_9to1_m_268_10_alg».proof.Proof.RefFinal
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- From memories agreeing on the arguments both idealized programs end with the same result array: the common result
    function of the arguments (the kernel's by its run, the reference's by its own, the two forms of the normalisation
    one function). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.resultFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Final.run_result m ρ, ?_⟩
  refine (θ_run Cert.ReferenceIdeal.defs _ _).mono (fun _ h c => ⟨(h c).1.trans ?_, (h c).2⟩)
    (Cert.ReferenceIdeal.RefFinal.run_result m' ρ')
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefFinal.frame_ri, trivial, algebraic⟩

end Cert.Proof

end
